-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S256x1024 : Shape := ⟨2, ![256, 1024]⟩
abbrev S4096x16 : Shape := ⟨2, ![4096, 16]⟩
abbrev S4096x65536 : Shape := ⟨2, ![4096, 65536]⟩
abbrev S_ : Shape := ⟨0, ![]⟩

class Facts : Prop where

variable [Facts]

def fn {F : FTy → Type} [FloatOps F] (main_arg0 : IVec S256x1024 1) (main_arg1 : IVec S4096x16 32) (main_arg2 : IVec S4096x65536 32) : IVec S_ 1 :=
  let main_c : IVec S_ 1 := constantI S_ 1 1#1
  main_c
-- ==== Kernel.lean ====
abbrev S256x1024 : Shape := ⟨2, ![256, 1024]⟩
abbrev S4096x16 : Shape := ⟨2, ![4096, 16]⟩
abbrev S4096x65536 : Shape := ⟨2, ![4096, 65536]⟩
abbrev S_ : Shape := ⟨0, ![]⟩
abbrev S4096x16x1 : Shape := ⟨3, ![4096, 16, 1]⟩
abbrev S256x4096x16 : Shape := ⟨3, ![256, 4096, 16]⟩
abbrev S16 : Shape := ⟨1, ![16]⟩
abbrev S1x1x16 : Shape := ⟨3, ![1, 1, 16]⟩
abbrev S256x4096 : Shape := ⟨2, ![256, 4096]⟩
abbrev S4096x256 : Shape := ⟨2, ![4096, 256]⟩
abbrev S4096x256x1 : Shape := ⟨3, ![4096, 256, 1]⟩
abbrev S4096x256x256 : Shape := ⟨3, ![4096, 256, 256]⟩
abbrev S32x256x256 : Shape := ⟨3, ![32, 256, 256]⟩
abbrev S32x256x1 : Shape := ⟨3, ![32, 256, 1]⟩
abbrev S32x256 : Shape := ⟨2, ![32, 256]⟩
abbrev S256x256 : Shape := ⟨2, ![256, 256]⟩
abbrev S1x256x256 : Shape := ⟨3, ![1, 256, 256]⟩
abbrev S1x256x1 : Shape := ⟨3, ![1, 256, 1]⟩
abbrev S256x1 : Shape := ⟨2, ![256, 1]⟩
abbrev S256 : Shape := ⟨1, ![256]⟩
abbrev S1x256 : Shape := ⟨2, ![1, 256]⟩

abbrev nBuf : Space → Nat
  | .hbm => 141
  | .vmem => 8
  | .smem => 0
  | _ => 0

abbrev hbmTy0_0 (i : Nat) : BufTy := match i % 128 with
  | 0 => ⟨S256x1024, .i1⟩
  | 1 => ⟨S4096x16, .i32⟩
  | 2 => ⟨S4096x65536, .i32⟩
  | 3 => ⟨S_, .i32⟩
  | 4 => ⟨S4096x16, .i32⟩
  | 5 => ⟨S4096x16, .i1⟩
  | 6 => ⟨S_, .i32⟩
  | 7 => ⟨S4096x16, .i32⟩
  | 8 => ⟨S4096x16, .i32⟩
  | 9 => ⟨S4096x16, .i32⟩
  | 10 => ⟨S4096x16x1, .i32⟩
  | 11 => ⟨S256x4096x16, .i1⟩
  | 12 => ⟨S256x4096x16, .i32⟩
  | 13 => ⟨S16, .i32⟩
  | 14 => ⟨S_, .i32⟩
  | 15 => ⟨S_, .i32⟩
  | 16 => ⟨S_, .i1⟩
  | 17 => ⟨S_, .i32⟩
  | 18 => ⟨S16, .i32⟩
  | 19 => ⟨S16, .i1⟩
  | 20 => ⟨S16, .i1⟩
  | 21 => ⟨S16, .i1⟩
  | 22 => ⟨S_, .i32⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i1⟩
  | 36 => ⟨S16, .i32⟩
  | 37 => ⟨S_, .i32⟩
  | 38 => ⟨S_, .i32⟩
  | 39 => ⟨S_, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S_, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i1⟩
  | 64 => ⟨S16, .i32⟩
  | 65 => ⟨S_, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i1⟩
  | 77 => ⟨S16, .i32⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i1⟩
  | 90 => ⟨S16, .i32⟩
  | 91 => ⟨S_, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S16, .i32⟩
  | 104 => ⟨S_, .i32⟩
  | 105 => ⟨S_, .i32⟩
  | 106 => ⟨S16, .i32⟩
  | 107 => ⟨S16, .i32⟩
  | 108 => ⟨S1x1x16, .i32⟩
  | 109 => ⟨S256x4096x16, .i32⟩
  | 110 => ⟨S256x4096x16, .i32⟩
  | 111 => ⟨S_, .i32⟩
  | 112 => ⟨S256x4096, .i32⟩
  | 113 => ⟨S4096x256, .i32⟩
  | 114 => ⟨S_, .i32⟩
  | 115 => ⟨S_, .i32⟩
  | 116 => ⟨S4096x256, .i32⟩
  | 117 => ⟨S4096x256, .i32⟩
  | 118 => ⟨S4096x256, .i32⟩
  | 119 => ⟨S_, .i32⟩
  | 120 => ⟨S4096x256, .i32⟩
  | 121 => ⟨S4096x256, .i1⟩
  | 122 => ⟨S4096x256, .i32⟩
  | 123 => ⟨S4096x256, .i32⟩
  | 124 => ⟨S_, .i32⟩
  | 125 => ⟨S4096x256, .i32⟩
  | 126 => ⟨S4096x256, .i1⟩
  | 127 => ⟨S4096x256, .i1⟩
  | _ => ⟨S256x1024, .i1⟩

abbrev hbmTy0_1 (i : Nat) : BufTy := match i % 128 with
  | 0 => ⟨S_, .i32⟩
  | 1 => ⟨S4096x256, .i32⟩
  | 2 => ⟨S4096x256, .i32⟩
  | 3 => ⟨S4096x256, .i32⟩
  | 4 => ⟨S_, .i32⟩
  | 5 => ⟨S4096x256, .i32⟩
  | 6 => ⟨S4096x256, .i32⟩
  | 7 => ⟨S4096x256, .i32⟩
  | 8 => ⟨S4096x256x1, .i32⟩
  | 9 => ⟨S4096x256x1, .i32⟩
  | 10 => ⟨S4096x256x256, .i32⟩
  | 11 => ⟨S4096x256, .i32⟩
  | 12 => ⟨S256x4096, .i32⟩
  | _ => ⟨S256x1024, .i1⟩

abbrev hbmTy (i : Nat) : BufTy := match i / 128 with
  | 0 => hbmTy0_0 i
  | 1 => hbmTy0_1 i
  | _ => ⟨S256x1024, .i1⟩

abbrev bufTy : (tb : Table) → Fin (tcTables nBuf tb) → BufTy
  | .hbm, ⟨i, _⟩ => hbmTy i
  | .local _ .vmem, ⟨0, _⟩ => ⟨S32x256x256, .i32⟩
  | .local _ .vmem, ⟨1, _⟩ => ⟨S32x256x256, .i32⟩
  | .local _ .vmem, ⟨2, _⟩ => ⟨S32x256x1, .i32⟩
  | .local _ .vmem, ⟨3, _⟩ => ⟨S32x256x1, .i32⟩
  | .local _ .vmem, ⟨4, _⟩ => ⟨S32x256x1, .i32⟩
  | .local _ .vmem, ⟨5, _⟩ => ⟨S32x256x1, .i32⟩
  | .local _ .vmem, ⟨6, _⟩ => ⟨S32x256, .i32⟩
  | .local _ .vmem, ⟨7, _⟩ => ⟨S32x256, .i32⟩
  | _, _ => ⟨S256x1024, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_c_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c_8 : Ref sig .tc := ⟨.hbm, 37, rfl⟩
abbrev main_c_9 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_c_11 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_v27 : Ref sig .tc := ⟨.hbm, 51, rfl⟩
abbrev main_v28 : Ref sig .tc := ⟨.hbm, 52, rfl⟩
abbrev main_c_12 : Ref sig .tc := ⟨.hbm, 53, rfl⟩
abbrev main_v29 : Ref sig .tc := ⟨.hbm, 54, rfl⟩
abbrev main_v30 : Ref sig .tc := ⟨.hbm, 55, rfl⟩
abbrev main_c_13 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_v35 : Ref sig .tc := ⟨.hbm, 64, rfl⟩
abbrev main_v36 : Ref sig .tc := ⟨.hbm, 65, rfl⟩
abbrev main_c_14 : Ref sig .tc := ⟨.hbm, 66, rfl⟩
abbrev main_v37 : Ref sig .tc := ⟨.hbm, 67, rfl⟩
abbrev main_v38 : Ref sig .tc := ⟨.hbm, 68, rfl⟩
abbrev main_c_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_v43 : Ref sig .tc := ⟨.hbm, 77, rfl⟩
abbrev main_v44 : Ref sig .tc := ⟨.hbm, 78, rfl⟩
abbrev main_c_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_v51 : Ref sig .tc := ⟨.hbm, 90, rfl⟩
abbrev main_v52 : Ref sig .tc := ⟨.hbm, 91, rfl⟩
abbrev main_c_18 : Ref sig .tc := ⟨.hbm, 92, rfl⟩
abbrev main_v53 : Ref sig .tc := ⟨.hbm, 93, rfl⟩
abbrev main_v54 : Ref sig .tc := ⟨.hbm, 94, rfl⟩
abbrev main_c_19 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_v59 : Ref sig .tc := ⟨.hbm, 103, rfl⟩
abbrev main_v60 : Ref sig .tc := ⟨.hbm, 104, rfl⟩
abbrev main_c_20 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_21 : Ref sig .tc := ⟨.hbm, 111, rfl⟩
abbrev main_v66 : Ref sig .tc := ⟨.hbm, 112, rfl⟩
abbrev main_v67 : Ref sig .tc := ⟨.hbm, 113, rfl⟩
abbrev main_c_22 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_call7_v5 : Ref sig .tc := ⟨.hbm, 120, rfl⟩
abbrev main_call7_v6 : Ref sig .tc := ⟨.hbm, 121, rfl⟩
abbrev main_call7_v7 : Ref sig .tc := ⟨.hbm, 122, rfl⟩
abbrev main_call7_v8 : Ref sig .tc := ⟨.hbm, 123, rfl⟩
abbrev main_call7_c : Ref sig .tc := ⟨.hbm, 124, rfl⟩
abbrev main_call7_v9 : Ref sig .tc := ⟨.hbm, 125, rfl⟩
abbrev main_call7_v10 : Ref sig .tc := ⟨.hbm, 126, rfl⟩
abbrev main_call7_v11 : Ref sig .tc := ⟨.hbm, 127, rfl⟩
abbrev main_call7_c_0 : Ref sig .tc := ⟨.hbm, 128, rfl⟩
abbrev main_call7_v12 : Ref sig .tc := ⟨.hbm, 129, rfl⟩
abbrev main_call7_v13 : Ref sig .tc := ⟨.hbm, 130, rfl⟩
abbrev main_v68 : Ref sig .tc := ⟨.hbm, 131, rfl⟩
abbrev main_c_23 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3 : Index := Scalar.indexCast arg5
  let c0 : Index := 0#32
  let c0_1 : Index := 0#32
  ![v3.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v7 : Index := Scalar.indexCast arg5
  let c0_2 : Index := 0#32
  let c0_3 : Index := 0#32
  ![v7.toNat, 0, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let v27 : Index := Scalar.indexCast arg5
  let c0_7 : Index := 0#32
  ![v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  natLt_1_32 : 1 < 32
  bcast_S_S16 : S_.BroadcastsInDim S16 (![] : Fin 0 → Fin S16.rank)
  bcast_S16_S1x1x16_2 : S16.BroadcastsInDim S1x1x16 (![2] : Fin 1 → Fin S1x1x16.rank)
  bcast_S1x1x16_S256x4096x16_0_1_2 : S1x1x16.BroadcastsInDim S256x4096x16 (![0, 1, 2] : Fin 3 → Fin S256x4096x16.rank)
  reducesTo_S256x4096x16_S256x4096_d2 : S256x4096x16.ReducesTo [2] S256x4096
  h_S_ : 0 < S_.numel
  transposes_S256x4096_S4096x256_1_0 : S256x4096.Transposes [1, 0] S4096x256
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  shapeCasts_S4096x65536_S4096x256x256 : S4096x65536.ShapeCasts S4096x256x256
  iota_S256x256_d1_w32 : S256x256.Iotas .tc 32 [1]
  h_S1x256x256 : 0 < S1x256x256.numel
  shapeCasts_S1x256x256_S256x256 : S1x256x256.ShapeCasts S256x256
  h_S1x256x1 : 0 < S1x256x1.numel
  shapeCasts_S1x256x1_S256x1 : S1x256x1.ShapeCasts S256x1
  broadcasts_S256x1_S256x256 : S256x1.Broadcasts S256x256
  bitsLt_bf16_f32 : FTy.bits .bf16 < FTy.bits .f32
  reduces_S256x256_S256 : S256x256.Reduces [1] S256
  h_S1x256 : 0 < S1x256.numel
  shapeCasts_S1x256_S256 : S1x256.ShapeCasts S256
  shapeCasts_S256_S1x256 : S256.ShapeCasts S1x256
  transposes_S4096x256_S256x4096_1_0 : S4096x256.Transposes [1, 0] S256x4096
  gather_S256x1024_S4096x16x1_S256x4096x16_0_1_n_n_1_2_2561_wf : GatherDims.WF S256x1024 S4096x16x1 S256x4096x16 [0] [1] [] [1] [] 2 ![256, 1]
  dot_S256x256_S256x256_S256x256_1_0_0_1_n_n_wf : DotDims.WF S256x256 S256x256 S256x256 [1] [0] [0] [1] [] []
  hrank0 : 0 < grid0.rank
  k0_t1_ok : k0_t1_loop.OK
  k0_off1_inb : ∀ k0_t1 : Fin k0_t1_loop.trips, ∀ a, (k0_off1 k0_t1) a + S1x256x256.size a ≤ S32x256x256.size a
  k0_off2_inb : ∀ k0_t1 : Fin k0_t1_loop.trips, ∀ a, (k0_off2 k0_t1) a + S1x256x1.size a ≤ S32x256x1.size a
  k0_off3_inb : ∀ k0_t1 : Fin k0_t1_loop.trips, ∀ a, (k0_off3 k0_t1) a + S1x256.size a ≤ S32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S4096x256x256.size a
  hwx0_0 : ∀ i : grid0.Coords, EltTy.bits .i32 = 32 ∨ (Rect.block (s := S4096x256x256) S32x256x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x1.size a ≤ S4096x256x1.size a
  hwx0_1 : ∀ i : grid0.Coords, EltTy.bits .i32 = 32 ∨ (Rect.block (s := S4096x256x1) S32x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x1.size a ≤ S4096x256x1.size a
  hwx0_2 : ∀ i : grid0.Coords, EltTy.bits .i32 = 32 ∨ (Rect.block (s := S4096x256x1) S32x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S4096x256.size a
  hwx0_3 : ∀ i : grid0.Coords, EltTy.bits .i32 = 32 ∨ (Rect.block (s := S4096x256) S32x256.size (cc0_transform_3 i) (hinb0_3 i)).WholeWords (EltTy.packing .i32)

variable [Facts₀]

def gather_S256x1024_S4096x16x1_S256x4096x16_0_1_n_n_1_2_2561 : GatherDims S256x1024 S4096x16x1 S256x4096x16 where
  offsetDims := [0]
  collapsedSliceDims := [1]
  operandBatchingDims := []
  startIndicesBatchingDims := []
  startIndexMap := [1]
  indexVectorDim := 2
  sliceSizes := ![256, 1]
  wf := gather_S256x1024_S4096x16x1_S256x4096x16_0_1_n_n_1_2_2561_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v74) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S32x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S32x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S4096x16 : Shape := ⟨2, ![4096, 16]⟩
abbrev S4096x65536 : Shape := ⟨2, ![4096, 65536]⟩
abbrev S_ : Shape := ⟨0, ![]⟩
abbrev S4096x16x1 : Shape := ⟨3, ![4096, 16, 1]⟩
abbrev S256x4096x16 : Shape := ⟨3, ![256, 4096, 16]⟩
abbrev S16 : Shape := ⟨1, ![16]⟩
abbrev S1x1x16 : Shape := ⟨3, ![1, 1, 16]⟩
abbrev S256x4096 : Shape := ⟨2, ![256, 4096]⟩
abbrev S4096 : Shape := ⟨1, ![4096]⟩
abbrev S1x4096 : Shape := ⟨2, ![1, 4096]⟩
abbrev S256x4096x1 : Shape := ⟨3, ![256, 4096, 1]⟩
abbrev S256x4096x2 : Shape := ⟨3, ![256, 4096, 2]⟩

abbrev nBuf : Space → Nat
  | .hbm => 134
  | .vmem => 0
  | .smem => 0
  | _ => 0

abbrev hbmTy0_0 (i : Nat) : BufTy := match i % 128 with
  | 0 => ⟨S256x1024, .i1⟩
  | 1 => ⟨S4096x16, .i32⟩
  | 2 => ⟨S4096x65536, .i32⟩
  | 3 => ⟨S_, .i32⟩
  | 4 => ⟨S4096x16, .i32⟩
  | 5 => ⟨S4096x16, .i1⟩
  | 6 => ⟨S_, .i32⟩
  | 7 => ⟨S4096x16, .i32⟩
  | 8 => ⟨S4096x16, .i32⟩
  | 9 => ⟨S4096x16, .i32⟩
  | 10 => ⟨S4096x16x1, .i32⟩
  | 11 => ⟨S256x4096x16, .i1⟩
  | 12 => ⟨S256x4096x16, .i32⟩
  | 13 => ⟨S16, .i32⟩
  | 14 => ⟨S_, .i32⟩
  | 15 => ⟨S_, .i32⟩
  | 16 => ⟨S_, .i1⟩
  | 17 => ⟨S_, .i32⟩
  | 18 => ⟨S16, .i32⟩
  | 19 => ⟨S16, .i1⟩
  | 20 => ⟨S16, .i1⟩
  | 21 => ⟨S16, .i1⟩
  | 22 => ⟨S_, .i32⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i1⟩
  | 36 => ⟨S16, .i32⟩
  | 37 => ⟨S_, .i32⟩
  | 38 => ⟨S_, .i32⟩
  | 39 => ⟨S_, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S_, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i1⟩
  | 64 => ⟨S16, .i32⟩
  | 65 => ⟨S_, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i1⟩
  | 77 => ⟨S16, .i32⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i1⟩
  | 90 => ⟨S16, .i32⟩
  | 91 => ⟨S_, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S16, .i32⟩
  | 104 => ⟨S_, .i32⟩
  | 105 => ⟨S_, .i32⟩
  | 106 => ⟨S16, .i32⟩
  | 107 => ⟨S16, .i32⟩
  | 108 => ⟨S1x1x16, .i32⟩
  | 109 => ⟨S256x4096x16, .i32⟩
  | 110 => ⟨S256x4096x16, .i32⟩
  | 111 => ⟨S_, .i32⟩
  | 112 => ⟨S256x4096, .i32⟩
  | 113 => ⟨S4096, .i32⟩
  | 114 => ⟨S1x4096, .i32⟩
  | 115 => ⟨S_, .i32⟩
  | 116 => ⟨S1x4096, .i32⟩
  | 117 => ⟨S1x4096, .i1⟩
  | 118 => ⟨S_, .i32⟩
  | 119 => ⟨S1x4096, .i32⟩
  | 120 => ⟨S1x4096, .i32⟩
  | 121 => ⟨S1x4096, .i32⟩
  | 122 => ⟨S_, .i32⟩
  | 123 => ⟨S256x4096, .i32⟩
  | 124 => ⟨S256x4096, .i1⟩
  | 125 => ⟨S_, .i32⟩
  | 126 => ⟨S256x4096, .i32⟩
  | 127 => ⟨S256x4096, .i32⟩
  | _ => ⟨S256x1024, .i1⟩

abbrev hbmTy0_1 (i : Nat) : BufTy := match i % 128 with
  | 0 => ⟨S256x4096, .i32⟩
  | 1 => ⟨S256x4096, .i32⟩
  | 2 => ⟨S256x4096x1, .i32⟩
  | 3 => ⟨S256x4096x1, .i32⟩
  | 4 => ⟨S256x4096x2, .i32⟩
  | 5 => ⟨S256x4096, .i32⟩
  | _ => ⟨S256x1024, .i1⟩

abbrev hbmTy (i : Nat) : BufTy := match i / 128 with
  | 0 => hbmTy0_0 i
  | 1 => hbmTy0_1 i
  | _ => ⟨S256x1024, .i1⟩

abbrev bufTy : (tb : Table) → Fin (tcTables nBuf tb) → BufTy
  | .hbm, ⟨i, _⟩ => hbmTy i
  | _, _ => ⟨S256x1024, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_c_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c_8 : Ref sig .tc := ⟨.hbm, 37, rfl⟩
abbrev main_c_9 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_c_11 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_v27 : Ref sig .tc := ⟨.hbm, 51, rfl⟩
abbrev main_v28 : Ref sig .tc := ⟨.hbm, 52, rfl⟩
abbrev main_c_12 : Ref sig .tc := ⟨.hbm, 53, rfl⟩
abbrev main_v29 : Ref sig .tc := ⟨.hbm, 54, rfl⟩
abbrev main_v30 : Ref sig .tc := ⟨.hbm, 55, rfl⟩
abbrev main_c_13 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_v35 : Ref sig .tc := ⟨.hbm, 64, rfl⟩
abbrev main_v36 : Ref sig .tc := ⟨.hbm, 65, rfl⟩
abbrev main_c_14 : Ref sig .tc := ⟨.hbm, 66, rfl⟩
abbrev main_v37 : Ref sig .tc := ⟨.hbm, 67, rfl⟩
abbrev main_v38 : Ref sig .tc := ⟨.hbm, 68, rfl⟩
abbrev main_c_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_v43 : Ref sig .tc := ⟨.hbm, 77, rfl⟩
abbrev main_v44 : Ref sig .tc := ⟨.hbm, 78, rfl⟩
abbrev main_c_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_v51 : Ref sig .tc := ⟨.hbm, 90, rfl⟩
abbrev main_v52 : Ref sig .tc := ⟨.hbm, 91, rfl⟩
abbrev main_c_18 : Ref sig .tc := ⟨.hbm, 92, rfl⟩
abbrev main_v53 : Ref sig .tc := ⟨.hbm, 93, rfl⟩
abbrev main_v54 : Ref sig .tc := ⟨.hbm, 94, rfl⟩
abbrev main_c_19 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_v59 : Ref sig .tc := ⟨.hbm, 103, rfl⟩
abbrev main_v60 : Ref sig .tc := ⟨.hbm, 104, rfl⟩
abbrev main_c_20 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_21 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_22 : Ref sig .tc := ⟨.hbm, 115, rfl⟩
abbrev main_v69 : Ref sig .tc := ⟨.hbm, 116, rfl⟩
abbrev main_v70 : Ref sig .tc := ⟨.hbm, 117, rfl⟩
abbrev main_c_23 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_24 : Ref sig .tc := ⟨.hbm, 122, rfl⟩
abbrev main_v74 : Ref sig .tc := ⟨.hbm, 123, rfl⟩
abbrev main_v75 : Ref sig .tc := ⟨.hbm, 124, rfl⟩
abbrev main_c_25 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  natLt_1_32 : 1 < 32
  bcast_S_S16 : S_.BroadcastsInDim S16 (![] : Fin 0 → Fin S16.rank)
  bcast_S16_S1x1x16_2 : S16.BroadcastsInDim S1x1x16 (![2] : Fin 1 → Fin S1x1x16.rank)
  bcast_S1x1x16_S256x4096x16_0_1_2 : S1x1x16.BroadcastsInDim S256x4096x16 (![0, 1, 2] : Fin 3 → Fin S256x4096x16.rank)
  reducesTo_S256x4096x16_S256x4096_d2 : S256x4096x16.ReducesTo [2] S256x4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S256x4096 : S_.BroadcastsInDim S256x4096 (![] : Fin 0 → Fin S256x4096.rank)
  bcast_S1x4096_S256x4096_0_1 : S1x4096.BroadcastsInDim S256x4096 (![0, 1] : Fin 2 → Fin S256x4096.rank)
  bcast_S256x4096_S256x4096x1_0_1 : S256x4096.BroadcastsInDim S256x4096x1 (![0, 1] : Fin 2 → Fin S256x4096x1.rank)
  concatenates_S256x4096x1_S256x4096x1_S256x4096x2_d2 : Shape.Concatenates [S256x4096x1, S256x4096x1] S256x4096x2 2
  gather_S256x1024_S4096x16x1_S256x4096x16_0_1_n_n_1_2_2561_wf : GatherDims.WF S256x1024 S4096x16x1 S256x4096x16 [0] [1] [] [1] [] 2 ![256, 1]
  gather_S4096x65536_S256x4096x2_S256x4096_n_01_n_n_01_2_11_wf : GatherDims.WF S4096x65536 S256x4096x2 S256x4096 [] [0, 1] [] [0, 1] [] 2 ![1, 1]

variable [Facts₀]

def gather_S256x1024_S4096x16x1_S256x4096x16_0_1_n_n_1_2_2561 : GatherDims S256x1024 S4096x16x1 S256x4096x16 where
  offsetDims := [0]
  collapsedSliceDims := [1]
  operandBatchingDims := []
  startIndicesBatchingDims := []
  startIndexMap := [1]
  indexVectorDim := 2
  sliceSizes := ![256, 1]
  wf := gather_S256x1024_S4096x16x1_S256x4096x16_0_1_n_n_1_2_2561_wf
def gather_S4096x65536_S256x4096x2_S256x4096_n_01_n_n_01_2_11 : GatherDims S4096x65536 S256x4096x2 S256x4096 where
  offsetDims := []
  collapsedSliceDims := [0, 1]
  operandBatchingDims := []
  startIndicesBatchingDims := []
  startIndexMap := [0, 1]
  indexVectorDim := 2
  sliceSizes := ![1, 1]
  wf := gather_S4096x65536_S256x4096x2_S256x4096_n_01_n_n_01_2_11_wf

class Facts : Prop extends Facts₀ where

variable [Facts]
-- ==== Proof.KernelBlock.lean ====
/-
  What one grid point leaves in the output block. The body is a counted loop of 32 trips; trip `j` loads row `j` of
  the table block (a 256 × 256 matrix) and row `j` of the two index blocks (256 words each), and stores one row of 256
  words at row `j` of the output block. So the pieces the run finds all agree with ONE function of the block index
  `(j, b)`: the trip's stored vector, computed from row `j` of the three inputs, read at `b`. The pieces tile the
  block, hence the block holds that function.
-/
import proofs.«419713_j21818433864466_3_alg».proof.Proof.Gen.KernelIdeal.Frame
import Idealize.ShloMosaic.Lib.Writes
import Idealize.ShloMosaic.Lib.ValueIdx

set_option maxRecDepth 16384

noncomputable section

namespace Cert.KernelIdeal.Block

open Idealize.ShloMosaic Idealize.ShloMosaic.TcCoe Idealize.ShloMosaic.ValueIdx
open Idealize.SL Idealize.SL.Sem
open Cert.KernelIdeal Cert.KernelIdeal.Gen

variable {F : FTy → Type} [FloatOps F]

/-- Row `j` of a table block, as the one-row vector a trip loads. -/
def tableRow (x : Vec F S32x256x256 .i32) (j : Fin 32) : Vec F S1x256x256 .i32 :=
  fun y => x (ix3 j (y 1) (y 2))

/-- Row `j` of an index block, as the one-row vector a trip loads. -/
def wordRow (x : Vec F S32x256x1 .i32) (j : Fin 32) : Vec F S1x256x1 .i32 :=
  fun y => x (ix3 j (y 1) (y 2))

/-- The function of the output block's index that every stored piece agrees with. -/
def blockFn (x0 : Vec F S32x256x256 .i32) (x1 x2 : Vec F S32x256x1 .i32) : S32x256.Idx → Elt F .i32 :=
  fun y => k0_pay1 (tableRow x0 (y 0)) (wordRow x1 (y 0)) (wordRow x2 (y 0)) (ix2 0 (y 1))

/-- The loop runs 32 trips. -/
theorem trips_eq : k0_t1_loop.trips = 32 := by decide +kernel

/-- A load of one row of a whole table block reads that row. -/
theorem load_tableRow (arg1 : Memref sig .tc .vmem S32x256x256 .i32) (harg1 : arg1.IsWhole) (x0 : Vec F S32x256x256 .i32)
    (k : Fin k0_t1_loop.trips) (hk : k.val < 32) :
    View.readAt (Elt F) arg1.view (Rect.unit (s := S32x256x256) (k0_off1 k) S1x256x256.size (k0_off1_inb k)).toLoadRect (harg1.unread x0)
      = tableRow x0 ⟨k.val, hk⟩ := by
  rw [View.readAt_eq_ld, harg1.read_unread]
  funext y
  show x0 _ = x0 _
  congr 1
  funext a
  apply Fin.ext
  have ho := k0_off1_eq k
  match a with
  | ⟨0, _⟩ =>
    have h0 : k0_off1 k 0 = k.val := by rw [ho]; rfl
    have hy : (y 0).val < 1 := (y 0).isLt
    show k0_off1 k 0 + 1 * (y 0).val = k.val
    omega
  | ⟨1, _⟩ =>
    have h1 : k0_off1 k 1 = 0 := by rw [ho]; rfl
    show k0_off1 k 1 + 1 * (y 1).val = (y 1).val
    omega
  | ⟨2, _⟩ =>
    have h2 : k0_off1 k 2 = 0 := by rw [ho]; rfl
    show k0_off1 k 2 + 1 * (y 2).val = (y 2).val
    omega

/-- A load of one row of a whole index block reads that row. -/
theorem load_wordRow (arg2 : Memref sig .tc .vmem S32x256x1 .i32) (harg2 : arg2.IsWhole) (x1 : Vec F S32x256x1 .i32)
    (k : Fin k0_t1_loop.trips) (hk : k.val < 32) :
    View.readAt (Elt F) arg2.view (Rect.unit (s := S32x256x1) (k0_off2 k) S1x256x1.size (k0_off2_inb k)).toLoadRect (harg2.unread x1)
      = wordRow x1 ⟨k.val, hk⟩ := by
  rw [View.readAt_eq_ld, harg2.read_unread]
  funext y
  show x1 _ = x1 _
  congr 1
  funext a
  apply Fin.ext
  have ho := k0_off2_eq k
  match a with
  | ⟨0, _⟩ =>
    have h0 : k0_off2 k 0 = k.val := by rw [ho]; rfl
    have hy : (y 0).val < 1 := (y 0).isLt
    show k0_off2 k 0 + 1 * (y 0).val = k.val
    omega
  | ⟨1, _⟩ =>
    have h1 : k0_off2 k 1 = 0 := by rw [ho]; rfl
    show k0_off2 k 1 + 1 * (y 1).val = (y 1).val
    omega
  | ⟨2, _⟩ =>
    have h2 : k0_off2 k 2 = 0 := by rw [ho]; rfl
    show k0_off2 k 2 + 1 * (y 2).val = (y 2).val
    omega

/-- The one piece trip `k` writes: a store, at row `k` of the output block, of the trip's vector of the three rows it loads. -/
theorem tripL_eq (𝒱 : Variants) (c : Dev nD) (bd : Option 𝒱.V) (i : grid0.Coords)
    (arg1 : Memref sig .tc .vmem S32x256x256 .i32) (harg1 : arg1.IsWhole) (arg2 : Memref sig .tc .vmem S32x256x1 .i32) (harg2 : arg2.IsWhole)
    (arg3 : Memref sig .tc .vmem S32x256x1 .i32) (harg3 : arg3.IsWhole) (arg4 : Memref sig .tc .vmem S32x256 .i32) (harg4 : arg4.IsWhole)
    (X1 : BufTy.Contents (Elt F) arg1.view.ty) (X2 : BufTy.Contents (Elt F) arg2.view.ty) (X3 : BufTy.Contents (Elt F) arg3.view.ty)
    (k : Fin k0_t1_loop.trips) :
    tripL_k0_t1 (F := F) 𝒱 c bd i arg1 harg1 arg2 harg2 arg3 harg3 arg4 harg4 X1 X2 X3 k
      = [(⟨Rect.unit (s := S32x256) (k0_off3 k) S1x256.size (k0_off3_inb k),
          k0_pay1 (View.readAt (Elt F) arg1.view (Rect.unit (s := S32x256x256) (k0_off1 k) S1x256x256.size (k0_off1_inb k)).toLoadRect X1)
            (View.readAt (Elt F) arg2.view (Rect.unit (s := S32x256x1) (k0_off2 k) S1x256x1.size (k0_off2_inb k)).toLoadRect X2)
            (View.readAt (Elt F) arg3.view (Rect.unit (s := S32x256x1) (k0_off2 k) S1x256x1.size (k0_off2_inb k)).toLoadRect X3)⟩
          : View.Piece (Elt F) S32x256 .i32)] := by
  unfold tripL_k0_t1 trip_k0_t1
  rfl

/-- The piece of trip `k` agrees with the block function: its rectangle is row `k` of the block, its payload the
    vector of row `k` of the inputs. -/
theorem piece_agrees (arg1 : Memref sig .tc .vmem S32x256x256 .i32) (harg1 : arg1.IsWhole)
    (arg2 : Memref sig .tc .vmem S32x256x1 .i32) (harg2 : arg2.IsWhole) (arg3 : Memref sig .tc .vmem S32x256x1 .i32) (harg3 : arg3.IsWhole)
    (x0 : Vec F S32x256x256 .i32) (x1 x2 : Vec F S32x256x1 .i32) (k : Fin k0_t1_loop.trips) (hk : k.val < 32)
    (x : (Rect.unit (s := S32x256) (k0_off3 k) S1x256.size (k0_off3_inb k)).shape.Idx) :
    k0_pay1 (View.readAt (Elt F) arg1.view (Rect.unit (s := S32x256x256) (k0_off1 k) S1x256x256.size (k0_off1_inb k)).toLoadRect (harg1.unread x0))
        (View.readAt (Elt F) arg2.view (Rect.unit (s := S32x256x1) (k0_off2 k) S1x256x1.size (k0_off2_inb k)).toLoadRect (harg2.unread x1))
        (View.readAt (Elt F) arg3.view (Rect.unit (s := S32x256x1) (k0_off2 k) S1x256x1.size (k0_off2_inb k)).toLoadRect (harg3.unread x2)) x
      = blockFn x0 x1 x2 ((Rect.unit (s := S32x256) (k0_off3 k) S1x256.size (k0_off3_inb k)).emb x) := by
  rw [load_tableRow arg1 harg1 x0 k hk, load_wordRow arg2 harg2 x1 k hk, load_wordRow arg3 harg3 x2 k hk]
  have he0 : ((Rect.unit (s := S32x256) (k0_off3 k) S1x256.size (k0_off3_inb k)).emb x) 0 = (⟨k.val, hk⟩ : Fin 32) := by
    apply Fin.ext
    have h0 : k0_off3 k 0 = k.val := by rw [k0_off3_eq]; rfl
    have hx : (x 0).val < 1 := (x 0).isLt
    show k0_off3 k 0 + 1 * (x 0).val = k.val
    omega
  have he1 : (ix2 (0 : Fin 1) (((Rect.unit (s := S32x256) (k0_off3 k) S1x256.size (k0_off3_inb k)).emb x) 1 : Fin 256) : S1x256.Idx) = x := by
    funext a
    match a with
    | ⟨0, _⟩ =>
      apply Fin.ext
      have hx : (x 0).val < 1 := (x 0).isLt
      show 0 = (x 0).val
      omega
    | ⟨1, _⟩ =>
      apply Fin.ext
      have h1 : k0_off3 k 1 = 0 := by rw [k0_off3_eq]; rfl
      show k0_off3 k 1 + 1 * (x 1).val = (x 1).val
      omega
  unfold blockFn
  show k0_pay1 _ _ _ x = k0_pay1 (tableRow x0 (((Rect.unit (s := S32x256) (k0_off3 k) S1x256.size (k0_off3_inb k)).emb x) 0))
    (wordRow x1 (((Rect.unit (s := S32x256) (k0_off3 k) S1x256.size (k0_off3_inb k)).emb x) 0))
    (wordRow x2 (((Rect.unit (s := S32x256) (k0_off3 k) S1x256.size (k0_off3_inb k)).emb x) 0))
    (ix2 0 (((Rect.unit (s := S32x256) (k0_off3 k) S1x256.size (k0_off3_inb k)).emb x) 1))
  rw [he0, he1]

/-- Every piece of the trips before `n` agrees with the block function: by induction on `n`, the new trip's piece sits
    at row `n` and holds the vector of row `n` of the inputs. -/
theorem pieces_agree (𝒱 : Variants) (c : Dev nD) (bd : Option 𝒱.V) (i : grid0.Coords)
    (arg1 : Memref sig .tc .vmem S32x256x256 .i32) (harg1 : arg1.IsWhole) (arg2 : Memref sig .tc .vmem S32x256x1 .i32) (harg2 : arg2.IsWhole)
    (arg3 : Memref sig .tc .vmem S32x256x1 .i32) (harg3 : arg3.IsWhole) (arg4 : Memref sig .tc .vmem S32x256 .i32) (harg4 : arg4.IsWhole)
    (x0 : Vec F S32x256x256 .i32) (x1 x2 : Vec F S32x256x1 .i32) :
    ∀ n, n ≤ k0_t1_loop.trips →
      ∀ p ∈ pb_k0_t1 (F := F) 𝒱 c bd i arg1 harg1 arg2 harg2 arg3 harg3 arg4 harg4 (harg1.unread x0) (harg2.unread x1) (harg3.unread x2) n,
        ∀ x : p.1.shape.Idx, p.2 x = blockFn x0 x1 x2 (p.1.emb x) := by
  intro n
  induction n with
  | zero =>
    intro _ p hp
    rw [pb_k0_t1.eq_1] at hp
    exact absurd hp List.not_mem_nil
  | succ n ih =>
    intro hn p hp x
    have hlt : n < k0_t1_loop.trips := hn
    have hk32 : n < 32 := by rw [← trips_eq]; exact hlt
    have e : pb_k0_t1 (F := F) 𝒱 c bd i arg1 harg1 arg2 harg2 arg3 harg3 arg4 harg4 (harg1.unread x0) (harg2.unread x1) (harg3.unread x2) (n + 1)
        = tripL_k0_t1 (F := F) 𝒱 c bd i arg1 harg1 arg2 harg2 arg3 harg3 arg4 harg4 (harg1.unread x0) (harg2.unread x1) (harg3.unread x2) ⟨n, hlt⟩
          ++ pb_k0_t1 (F := F) 𝒱 c bd i arg1 harg1 arg2 harg2 arg3 harg3 arg4 harg4 (harg1.unread x0) (harg2.unread x1) (harg3.unread x2) n :=
      pb_k0_t1_succ 𝒱 c bd i arg1 harg1 arg2 harg2 arg3 harg3 arg4 harg4 (harg1.unread x0) (harg2.unread x1) (harg3.unread x2) ⟨n, hlt⟩
    rw [e, tripL_eq, List.cons_append, List.nil_append, List.mem_cons] at hp
    rcases hp with rfl | hp
    · exact piece_agrees arg1 harg1 arg2 harg2 arg3 harg3 x0 x1 x2 ⟨n, hlt⟩ hk32 x
    · exact ih (Nat.le_of_lt hlt) p hp x

/-- What the body leaves in the output block at `(j, b)`: the vector of row `j` of the three input blocks, read at `b`.
    The run's pieces are those of all 32 trips; they agree with the block function and cover the block. -/
theorem out_apply (c : Dev nD) (i : grid0.Coords)
    (arg1 : Memref sig .tc .vmem S32x256x256 .i32) (harg1 : arg1.IsWhole) (arg2 : Memref sig .tc .vmem S32x256x1 .i32) (harg2 : arg2.IsWhole)
    (arg3 : Memref sig .tc .vmem S32x256x1 .i32) (harg3 : arg3.IsWhole) (arg4 : Memref sig .tc .vmem S32x256 .i32) (harg4 : arg4.IsWhole)
    (x0 : Vec F S32x256x256 .i32) (x1 x2 : Vec F S32x256x1 .i32) (j : Fin 32) (b : Fin 256) :
    out0_A_3 (F := F) c i arg1 harg1 arg2 harg2 arg3 harg3 arg4 harg4 x0 x1 x2 (ix2 j b)
      = k0_pay1 (tableRow x0 j) (wordRow x1 j) (wordRow x2 j) (ix2 0 b) := by
  have hL : (kernelRun0_A (F := F) c i arg1 harg1 arg2 harg2 arg3 harg3 arg4 harg4 x0 x1 x2).1
      = pb_k0_t1 (F := F) Variants.none c none i arg1 harg1 arg2 harg2 arg3 harg3 arg4 harg4
          (harg1.unread x0) (harg2.unread x1) (harg3.unread x2) k0_t1_loop.trips := by
    unfold kernelRun0_A; rfl
  unfold out0_A_3
  refine (View.read_writes_apply_of_pieces _ _ (blockFn x0 x1 x2) _ ?_ (ix2 j b)
    (cover0_A_3 c i arg1 harg1 arg2 harg2 arg3 harg3 arg4 harg4 x0 x1 x2 (ix2 j b))).trans rfl
  rw [hL]
  exact pieces_agree Variants.none c none i arg1 harg1 arg2 harg2 arg3 harg3 arg4 harg4 x0 x1 x2 _ (Nat.le_refl _)

end Cert.KernelIdeal.Block

end
-- ==== Proof.Select.lean ====
/-
  One trip's stored row, at the extended reals. With `h` and `l` the two index words of batch entry `b` (both below
  256), the one-hot row `[h = k]` times the table row block picks row `h`; the product with the one-hot row `[l = ·]`
  summed over the lanes picks entry `l` of it; the entry is an integer, so rounding to nearest leaves it and the
  conversion back to a 32-bit word returns the table's word itself.
-/
import proofs.«419713_j21818433864466_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Select

open Idealize.ShloMosaic Idealize.ShloMosaic.TcCoe Idealize.ShloMosaic.ValueIdx Idealize.SL.Sem
open Cert.KernelIdeal Cert.KernelIdeal.Gen

/-! ## Layout: the index column spread along the lanes -/

/-- A column `[a, 1]` spread to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index column, viewed `[256, 1]` and spread along the lanes, reads at `(p, q)` the column's word `p`. -/
theorem idxcol_apply (v : Vec Ideal S1x256x1 .i32) (p q : Fin 256) :
    broadcastTo S256x256 (shapeCast S256x1 v shapeCasts_S1x256x1_S256x1) broadcasts_S256x1_S256x256 (ix2 p q)
      = v (ix3 0 p 0) := by
  rw [broadcastTo_a1_ab_apply, shapeCast_1ab_ab_apply]

/-! ## The one-hot rows -/

/-- The comparison bit of two words, widened and read as a signed real, is the indicator of their equality. -/
theorem bit_real (x y : BitVec 32) :
    ((((IntOp.cmpi .eq x y).setWidth 32).toInt : ℝ) : EReal) = if x = y then 1 else 0 := by
  by_cases h : x = y
  · subst h; simp [IntOp.cmpi]
  · have hb : (x == y) = false := by simpa using h
    simp [IntOp.cmpi, h, hb]

/-- A 32-bit word is the word of a lane number below 256 exactly when its value is that number. -/
theorem word_eq_lane (w : BitVec 32) (q : Fin 256) : w = BitVec.ofNat 32 q.val ↔ w.toNat = q.val := by
  constructor
  · intro h; rw [h]; simp; have := q.isLt; omega
  · intro h; rw [← h]; simp

/-- The one-hot rows of an index column, as 32-bit floats: at `(p, q)` the indicator that word `p` of the column is
    lane `q`. -/
theorem onehot_apply (v : Vec Ideal S1x256x1 .i32) (p q : Fin 256) :
    (sitofp .f32 (extui 32 (cmpi .eq (broadcastTo S256x256 (shapeCast S256x1 v shapeCasts_S1x256x1_S256x1) broadcasts_S256x1_S256x256)
        (iota .tc S256x256 32 [1] iota_S256x256_d1_w32)) natLt_1_32) : FVec Ideal S256x256 .f32) (ix2 p q)
      = if (v (ix3 0 p 0)).toNat = q.val then 1 else 0 := by
  show ((((IntOp.cmpi .eq (broadcastTo S256x256 (shapeCast S256x1 v shapeCasts_S1x256x1_S256x1) broadcasts_S256x1_S256x256 (ix2 p q))
        (iota .tc S256x256 32 [1] iota_S256x256_d1_w32 (ix2 p q))).setWidth 32).toInt : ℝ) : EReal) = _
  rw [idxcol_apply, iota_single_apply, bit_real]
  exact if_congr (word_eq_lane _ q) rfl rfl

/-- The same rows narrowed to 16-bit floats: a change of format is the identity on the extended reals. -/
theorem hot_apply (v : Vec Ideal S1x256x1 .i32) (p q : Fin 256) :
    (truncf .bf16 (sitofp .f32 (extui 32 (cmpi .eq (broadcastTo S256x256 (shapeCast S256x1 v shapeCasts_S1x256x1_S256x1) broadcasts_S256x1_S256x256)
        (iota .tc S256x256 32 [1] iota_S256x256_d1_w32)) natLt_1_32) : FVec Ideal S256x256 .f32) bitsLt_bf16_f32 : FVec Ideal S256x256 .bf16) (ix2 p q)
      = if (v (ix3 0 p 0)).toNat = q.val then 1 else 0 :=
  onehot_apply v p q

/-- The table block as floats, at `(k, l)`: the table's word there, read signed. -/
theorem table_apply (v4 : Vec Ideal S1x256x256 .i32) (k l : Fin 256) :
    (sitofp .bf16 (shapeCast S256x256 v4 shapeCasts_S1x256x256_S256x256) : FVec Ideal S256x256 .bf16) (ix2 k l)
      = (((v4 (ix3 0 k l)).toInt : ℝ) : EReal) := by
  show (((shapeCast S256x256 v4 shapeCasts_S1x256x256_S256x256 (ix2 k l)).toInt : ℝ) : EReal) = _
  rw [shapeCast_1ab_ab_apply]

/-! ## The product of two `[256, 256]` operands into zero, read at an index

The contraction runs over the left operand's axis 1 and the right operand's axis 0: at output `(p, l)` and contraction
position `k` the operands are read at `(p, k)` and `(k, l)`. One lemma per operand axis. -/

theorem lhs_dot_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl

theorem lhs_dot_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q

theorem rhs_dot_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q

theorem rhs_dot_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The product into the zero accumulator, at row `p` and lane `l`: `∑ k, L (p, k) · R (k, l)`. -/
theorem matmul_zero_apply (L R : FVec Ideal S256x256 .bf16) (p l : Fin 256) :
    matmul dot_S256x256_S256x256_S256x256_1_0_0_1_n_n none L R (constant (F := Ideal) S256x256 .f32 0x00000000#32) (ix2 p l)
      = ∑ k : Fin 256, L (ix2 p k) * R (ix2 k l) := by
  simp only [matmul]
  rw [Ideal.matmul_constant_zero_apply,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 p l)
      ((contrEquiv1 dot_S256x256_S256x256_S256x256_1_0_0_1_n_n 256 rfl rfl).symm k) = ix2 p k :=
    funext fun a => Fin.ext (by
      match a with
      | ⟨0, _⟩ => exact lhs_dot_0 _ _
      | ⟨1, _⟩ => exact (lhs_dot_1 _ _).trans hk)
  have er : dot_S256x256_S256x256_S256x256_1_0_0_1_n_n.rhsIdx (ix2 p l)
      ((contrEquiv1 dot_S256x256_S256x256_S256x256_1_0_0_1_n_n 256 rfl rfl).symm k) = ix2 k l :=
    funext fun a => Fin.ext (by
      match a with
      | ⟨0, _⟩ => exact (rhs_dot_0 _ _).trans hk
      | ⟨1, _⟩ => exact rhs_dot_1 _ _)
  rw [el, er]

/-! ## Sums against an indicator -/

/-- A sum against an indicator on the left keeps the one term the indicator names: `∑ k, [a = k] · f k = f a`. -/
theorem sum_ind_mul {n : ℕ} (a : ℕ) (ha : a < n) (f : Fin n → EReal) :
    ∑ k : Fin n, (if a = k.val then (1 : EReal) else 0) * f k = f ⟨a, ha⟩ := by
  rw [Finset.sum_eq_single (⟨a, ha⟩ : Fin n)]
  · rw [if_pos rfl, one_mul]
  · intro k _ hk
    rw [if_neg (fun h => hk (Fin.ext h.symm)), zero_mul]
  · intro h; exact absurd (Finset.mem_univ _) h

/-- The same with the indicator on the right: `∑ k, f k · [a = k] = f a`. -/
theorem sum_mul_ind {n : ℕ} (a : ℕ) (ha : a < n) (f : Fin n → EReal) :
    ∑ k : Fin n, f k * (if a = k.val then (1 : EReal) else 0) = f ⟨a, ha⟩ := by
  rw [Finset.sum_eq_single (⟨a, ha⟩ : Fin n)]
  · rw [if_pos rfl, mul_one]
  · intro k _ hk
    rw [if_neg (fun h => hk (Fin.ext h.symm)), mul_zero]
  · intro h; exact absurd (Finset.mem_univ _) h

/-! ## An integer survives the rounding and the conversion back to a word -/

/-- Rounding to nearest, ties to even, fixes an integer: its fractional part is `0 < 1/2`. -/
theorem roundHalfEven_intCast (n : ℤ) : Ideal.roundHalfEven (n : ℝ) = n := by
  unfold Ideal.roundHalfEven
  simp

/-- A 32-bit word read signed, as a real, converts back to the same word: it is its own integer part and lies in
    `[-2^31, 2^31 - 1]`, so the clamp leaves it, and the word of a word's signed value is the word. -/
theorem fptosi_toInt (w : BitVec 32) : Ideal.fptosi 32 (((w.toInt : ℝ)) : EReal) = w := by
  unfold Ideal.fptosi
  rw [Ideal.toIntClamped_coe]
  have h1 : (if (0 : ℝ) ≤ (w.toInt : ℝ) then ⌊(w.toInt : ℝ)⌋ else ⌈(w.toInt : ℝ)⌉) = w.toInt := by
    split <;> simp
  rw [h1]
  have hlo := BitVec.le_toInt w
  have hhi := BitVec.toInt_lt (x := w)
  have e : max (-((2 ^ (32 - 1) : ℕ) : ℤ)) (min (((2 ^ (32 - 1) : ℕ) : ℤ) - 1) w.toInt) = w.toInt := by
    norm_num at hlo hhi ⊢
    omega
  rw [e, BitVec.ofInt_toInt]

/-! ## The two selections -/

/-- The one-hot rows times the table block: `∑ k, [h = k] · M (k, l) = M (h, l)`, row `p` of the product is the table's
    row named by word `p` of the column. -/
theorem row_apply (v4 : Vec Ideal S1x256x256 .i32) (v8 : Vec Ideal S1x256x1 .i32) (p l : Fin 256)
    (hhi : (v8 (ix3 0 p 0)).toNat < 256) :
    matmul dot_S256x256_S256x256_S256x256_1_0_0_1_n_n none
        (truncf .bf16 (sitofp .f32 (extui 32 (cmpi .eq (broadcastTo S256x256 (shapeCast S256x1 v8 shapeCasts_S1x256x1_S256x1) broadcasts_S256x1_S256x256)
          (iota .tc S256x256 32 [1] iota_S256x256_d1_w32)) natLt_1_32) : FVec Ideal S256x256 .f32) bitsLt_bf16_f32 : FVec Ideal S256x256 .bf16)
        (sitofp .bf16 (shapeCast S256x256 v4 shapeCasts_S1x256x256_S256x256) : FVec Ideal S256x256 .bf16)
        (constant (F := Ideal) S256x256 .f32 0x00000000#32) (ix2 p l)
      = (((v4 (ix3 0 ⟨(v8 (ix3 0 p 0)).toNat, hhi⟩ l)).toInt : ℝ) : EReal) := by
  rw [matmul_zero_apply]
  refine (Finset.sum_congr rfl fun k _ => ?_).trans
    (sum_ind_mul _ hhi (fun k => (((v4 (ix3 0 k l)).toInt : ℝ) : EReal)))
  rw [hot_apply, table_apply]

/-- A lane sum from zero, at row `p`: the sum over the lanes of the row. -/
theorem lanesum_apply (X : FVec Ideal S256x256 .f32) (hφ : FKind.Formats .f32)
    (hacc : (0x00000000#32 : BitVec 32) = FKind.add.neutral .f32 hφ) (p : Fin 256) :
    multiReduction (F := Ideal) .add [1] S256 X 0x00000000#32 reduces_S256x256_S256 hφ hacc (ix1 p)
      = ∑ l : Fin 256, X (ix2 p l) := by
  refine (Ideal.multiReduction_add_single X _ reduces_S256x256_S256 hφ hacc (ix1 p)).trans ?_
  refine Finset.sum_congr rfl fun l _ => congrArg X ?_
  funext a
  match a with
  | ⟨0, _⟩ => rfl
  | ⟨1, _⟩ => rfl

/-- The stored row at batch entry `b` is the table entry the two index words name. -/
theorem pay_apply (v4 : Vec Ideal S1x256x256 .i32) (v8 v11 : Vec Ideal S1x256x1 .i32) (b : Fin 256)
    (hhi : (v8 (ix3 0 b 0)).toNat < 256) (hlo : (v11 (ix3 0 b 0)).toNat < 256) :
    k0_pay1 (F := Ideal) v4 v8 v11 (ix2 0 b)
      = v4 (ix3 0 ⟨(v8 (ix3 0 b 0)).toNat, hhi⟩ ⟨(v11 (ix3 0 b 0)).toNat, hlo⟩) := by
  unfold k0_pay1
  rw [shapeCast_a_1a_apply]
  -- the lane sum `∑ l, M (h, l) · [lo = l]` is `M (h, lo)`, an integer …
  refine (congrArg (fun x => Ideal.fptosi 32 (Ideal.liftRound Ideal.roundHalfEven x))
    ((lanesum_apply _ _ _ b).trans ((Finset.sum_congr rfl fun l _ => ?_).trans
      (sum_mul_ind _ hlo (fun l => (((v4 (ix3 0 ⟨(v8 (ix3 0 b 0)).toNat, hhi⟩ l)).toInt : ℝ) : EReal)))))).trans ?_
  · rw [mulf_apply, row_apply v4 v8 b l hhi, onehot_apply]
  -- … which the rounding fixes and the conversion turns back into the table's word
  · show Ideal.fptosi 32 (Ideal.liftRound Ideal.roundHalfEven (((_ : ℤ) : ℝ) : EReal)) = _
    rw [Ideal.liftRound_coe, roundHalfEven_intCast, fptosi_toInt]

end Cert.KernelIdeal.Select

end
-- ==== Proof.KernelHost.lean ====
/-
  The arrays the kernel's region is launched on, as functions of the address array. The host lines after the address
  sum transpose it to neuron-major order, divide by 256 rounding down (a truncating division corrected where the signs
  differ; for an address in [0, 65536) the correction never fires), take the remainder as address − 256 · quotient, give
  both a trailing unit axis, and view the table's 65536-entry rows as 256 × 256.

  The host lines are split at the address sum: the lines before it are never opened (their result is the address array,
  kept as it is), and the few lines after it are read off as pure array operations on that array. Each array is then
  read at an index, and the word facts (a nonnegative word below 65536, divided by 256) finish.
-/
import proofs.«419713_j21818433864466_3_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.Lib.Affine

set_option maxRecDepth 16384

noncomputable section

namespace Cert.KernelIdeal.Host

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The address array as the region's host prefix leaves it. -/
abbrev addrArr (c : Dev nD) : S256x4096.Idx → BitVec 32 := V m c main_v66

/-! ## Words

Facts about one 32-bit word `a` below 65536. -/

/-- Truncating signed division of a small nonnegative word by 256 is the quotient of the values. -/
theorem toNat_divsi_256 (u : ArithUnit) (a : BitVec 32) (h : a.toNat < 2 ^ 31) :
    (IntOp.divsi u a 256#32).toNat = a.toNat / 256 := by
  have hcorner : ¬ IntOp.SDivCorner a 256#32 := by
    intro hc; rcases hc with hc | ⟨_, hc⟩ <;> exact absurd hc (by decide)
  have hm : a.msb = false := BitVec.msb_eq_false_iff_two_mul_lt.mpr (by omega)
  simp only [IntOp.divsi, if_neg hcorner, BitVec.sdiv_eq, hm, show (256#32 : BitVec 32).msb = false from by decide, BitVec.udiv_eq,
    BitVec.toNat_udiv, BitVec.toNat_ofNat]

/-- The sign of a word as a word: 0, −1 or 1. -/
def sgnWord (a : BitVec 32) : BitVec 32 := if a = 0 then 0 else if a.msb then -1 else 1

/-- The floor division of one word by 256 as the host lines compute it: the truncating quotient, less one where the
    signs of dividend and divisor differ and the remainder is not zero. -/
def fdivWord (a : BitVec 32) : BitVec 32 :=
  Scalar.select
    (IntOp.andi (IntOp.cmpi .ne (sgnWord a) (sgnWord 256#32)) (IntOp.cmpi .ne (IntOp.remsi .host a 256#32) 0#32))
    (IntOp.subi (IntOp.divsi .host a 256#32) 1#32)
    (IntOp.divsi .host a 256#32)

theorem andi_zero_left (d : BitVec 1) : IntOp.andi 0#1 d = 0#1 := by revert d; decide
theorem andi_zero_right (d : BitVec 1) : IntOp.andi d 0#1 = 0#1 := by revert d; decide

/-- For an address below 65536 the correction never fires: the floor quotient is the value's quotient. -/
theorem toNat_fdivWord (a : BitVec 32) (h : a.toNat < 65536) : (fdivWord a).toNat = a.toNat / 256 := by
  have hq := toNat_divsi_256 .host a (by omega)
  have hc : IntOp.andi (IntOp.cmpi .ne (sgnWord a) (sgnWord 256#32)) (IntOp.cmpi .ne (IntOp.remsi .host a 256#32) 0#32) = 0#1 := by
    by_cases h0 : a = 0
    · subst h0
      have hr : IntOp.remsi .host (0 : BitVec 32) 256#32 = 0#32 := by
        apply BitVec.eq_of_toNat_eq
        rw [IntOp.toNat_remsi .host (by decide) 256 (by omega) (by omega)]; rfl
      rw [hr, show IntOp.cmpi .ne (0#32 : BitVec 32) 0#32 = 0#1 from by decide, andi_zero_right]
    · have hm : a.msb = false := BitVec.msb_eq_false_iff_two_mul_lt.mpr (by omega)
      have hs : sgnWord a = sgnWord 256#32 := by
        unfold sgnWord; rw [if_neg h0, hm]; decide
      rw [hs, show IntOp.cmpi .ne (sgnWord 256#32) (sgnWord 256#32) = 0#1 from by decide, andi_zero_left]
  unfold fdivWord
  rw [hc, select_zero]; exact hq

/-- The address less 256 times its quotient is its remainder. -/
theorem toNat_sub_mul_256 (a q : BitVec 32) (h : a.toNat < 65536) (hq : q.toNat = a.toNat / 256) :
    (IntOp.subi a (IntOp.muli q 256#32)).toNat = a.toNat % 256 := by
  show (a - q * 256#32).toNat = _
  rw [BitVec.toNat_sub, BitVec.toNat_mul, hq, show (256#32 : BitVec 32).toNat = 256 from rfl]
  omega

/-! ## The host lines split at the address sum -/

/-- The host lines up to and including the address sum. -/
abbrev headOps : List (HloOp τ sig (Elt F)) :=
  List.flatten [hostOps0, hostOps0_1, hostOps0_2, hostOps0_3, hostOps0_4, hostOps0_5, hostOps0_6, hostOps0_7, hostOps0_8,
    hostOps0_9, hostOps0_10, hostOps0_11, hostOps0_12, hostOps0_13] ++ hostOps0_14.take 9

/-- The host lines after the address sum: the transpose, the floor division, the remainder, the trailing unit axes and
    the table's reshape. -/
abbrev tailOps : List (HloOp τ sig (Elt F)) := hostOps0_14.drop 9 ++ (hostOps0_15 ++ hostOps0_16)

theorem ops_split : (List.flatten [hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15, hostOps0_16] :
      List (HloOp τ sig (Elt F))) = headOps ++ tailOps := by
  simp only [headOps, tailOps, List.flatten_cons, List.flatten_nil, List.append_nil, List.append_assoc]
  rw [← List.append_assoc (List.take 9 hostOps0_14), List.take_append_drop]

/-- The buffers' contents once the address sum is written. -/
def W (c : Dev nD) : Valuation τ sig (Elt F) := StableHlo.after headOps (fun b => m (c, b))

/-- The contents the region finds are the later lines run from there. -/
theorem V0_eq (c : Dev nD) : V0 m c = StableHlo.after tailOps (W m c) := by
  show StableHlo.after (List.flatten _) _ = _
  rw [ops_split, StableHlo.after_append]; rfl

/-- No later line writes the address array. -/
theorem W_addr (c : Dev nD) : W m c (Proc.devRef .tc main_v66) = V m c main_v66 := by
  show _ = V0 m c (Proc.devRef .tc main_v66)
  rw [V0_eq]
  simp only [tailOps, hostOps0_14, hostOps0_15, hostOps0_16, List.drop_succ_cons, List.drop_zero, List.cons_append, List.nil_append]
  after_results_simp

/-- No later line but the reshape touches the table, and none before writes it. -/
theorem W_table (c : Dev nD) : W m c (Proc.devRef .tc main_arg2) = m ((c.tc : Thread nD τ).loc main_arg2) := by
  rw [← V_main_arg2 m c]
  show _ = V0 m c (Proc.devRef .tc main_arg2)
  rw [V0_eq]
  simp only [tailOps, hostOps0_14, hostOps0_15, hostOps0_16, List.drop_succ_cons, List.drop_zero, List.cons_append, List.nil_append]
  after_results_simp

/-! ## Transport along a buffer's type

A module-local function's lines move contents between a buffer's own type and the tensor type written at the call site;
at a literal buffer the two are the same type and the transport is the identity. -/

theorem cast_cast_inv {α β : Type} (h : α = β) (h' : β = α) (v : α) : cast h' (cast h v) = v := by subst h; rfl

theorem cast_from_v67 (h : (main_v67 : Ref sig .tc).ty.Contents (Elt F) = (⟨S4096x256, .i32⟩ : BufTy).Contents (Elt F))
    (v : (main_v67 : Ref sig .tc).ty.Contents (Elt F)) : cast h v = v := rfl
theorem cast_from_c22 (h : (main_c_22 : Ref sig .tc).ty.Contents (Elt F) = (⟨S_, .i32⟩ : BufTy).Contents (Elt F))
    (v : (main_c_22 : Ref sig .tc).ty.Contents (Elt F)) : cast h v = v := rfl
theorem cast_to_v68 (h : (⟨S4096x256, .i32⟩ : BufTy).Contents (Elt F) = (main_v68 : Ref sig .tc).ty.Contents (Elt F))
    (v : (⟨S4096x256, .i32⟩ : BufTy).Contents (Elt F)) : cast h v = v := rfl

/-! ## The three arrays as functions of the address array -/

/-- The quotient array: the address array in neuron-major order, floor-divided by 256 entry by entry as the host lines
    do it (truncating quotient, less one where the signs differ and the remainder is not zero). -/
def quotArr (A : S256x4096.Idx → BitVec 32) : S4096x256.Idx → BitVec 32 :=
  select
    (andi
      (cmpi .ne (signi (transpose S4096x256 [1, 0] A transposes_S256x4096_S4096x256_1_0))
        (broadcastInDim S4096x256 ![] bcast_S_S4096x256 (signi (id (constantI S_ 32 256#32)))))
      (cmpi .ne
        (Host.remsi (transpose S4096x256 [1, 0] A transposes_S256x4096_S4096x256_1_0)
          (broadcastInDim S4096x256 ![] bcast_S_S4096x256 (id (constantI S_ 32 256#32))))
        (broadcastInDim S4096x256 ![] bcast_S_S4096x256 (constantI S_ 32 0#32))))
    (subi
      (Host.divsi (transpose S4096x256 [1, 0] A transposes_S256x4096_S4096x256_1_0)
        (broadcastInDim S4096x256 ![] bcast_S_S4096x256 (id (constantI S_ 32 256#32))))
      (broadcastInDim S4096x256 ![] bcast_S_S4096x256 (constantI S_ 32 1#32)))
    (Host.divsi (transpose S4096x256 [1, 0] A transposes_S256x4096_S4096x256_1_0)
      (broadcastInDim S4096x256 ![] bcast_S_S4096x256 (id (constantI S_ 32 256#32))))

theorem hi_eq (c : Dev nD) : (V m c main_v72 : S4096x256x1.Idx → BitVec 32)
    = broadcastInDim S4096x256x1 ![0, 1] bcast_S4096x256_S4096x256x1_0_1 (quotArr (addrArr m c)) := by
  show V0 m c (Proc.devRef .tc main_v72) = _
  rw [V0_eq]
  simp only [tailOps, hostOps0_14, hostOps0_15, hostOps0_16, List.drop_succ_cons, List.drop_zero, List.cons_append, List.nil_append]
  after_results_simp
  simp only [StableHlo.TRef.ofBuf, StableHlo.TRef.toBuf, cast_cast_inv]
  rw [W_addr]
  simp only [cast_from_v67, cast_from_c22, cast_to_v68]
  rfl

/-- The remainder array: each entry less 256 times its quotient. -/
def remArr (A : S256x4096.Idx → BitVec 32) : S4096x256.Idx → BitVec 32 :=
  subi (transpose S4096x256 [1, 0] A transposes_S256x4096_S4096x256_1_0)
    (muli (quotArr A) (broadcastInDim S4096x256 ![] bcast_S_S4096x256 (constantI S_ 32 256#32)))

theorem lo_eq (c : Dev nD) : (V m c main_v73 : S4096x256x1.Idx → BitVec 32)
    = broadcastInDim S4096x256x1 ![0, 1] bcast_S4096x256_S4096x256x1_0_1 (remArr (addrArr m c)) := by
  show V0 m c (Proc.devRef .tc main_v73) = _
  rw [V0_eq]
  simp only [tailOps, hostOps0_14, hostOps0_15, hostOps0_16, List.drop_succ_cons, List.drop_zero, List.cons_append, List.nil_append]
  after_results_simp
  simp only [StableHlo.TRef.ofBuf, StableHlo.TRef.toBuf, cast_cast_inv]
  rw [W_addr]
  simp only [cast_from_v67, cast_from_c22, cast_to_v68]
  rfl

theorem table_eq (c : Dev nD) : (V m c main_v74 : S4096x256x256.Idx → BitVec 32)
    = shapeCast S4096x256x256 (m ((c.tc : Thread nD τ).loc main_arg2) : S4096x65536.Idx → BitVec 32) shapeCasts_S4096x65536_S4096x256x256 := by
  show V0 m c (Proc.devRef .tc main_v74) = _
  rw [V0_eq]
  simp only [tailOps, hostOps0_14, hostOps0_15, hostOps0_16, List.drop_succ_cons, List.drop_zero, List.cons_append, List.nil_append]
  after_results_simp
  rw [W_table]
  rfl

/-- An entry of the quotient array is the floor quotient of the transposed address. -/
theorem quotArr_apply (A : S256x4096.Idx → BitVec 32) (i : S4096x256.Idx) :
    quotArr A i = fdivWord (transpose S4096x256 [1, 0] A transposes_S256x4096_S4096x256_1_0 i) := rfl

/-- An entry of the remainder array is the transposed address less 256 times its floor quotient. -/
theorem remArr_apply (A : S256x4096.Idx → BitVec 32) (i : S4096x256.Idx) :
    remArr A i = IntOp.subi (transpose S4096x256 [1, 0] A transposes_S256x4096_S4096x256_1_0 i)
      (IntOp.muli (fdivWord (transpose S4096x256 [1, 0] A transposes_S256x4096_S4096x256_1_0 i)) 256#32) := rfl

/-- The quotient array, at neuron `n` and batch entry `b`: the address divided by 256. -/
theorem hi_apply (c : Dev nD) (n : Fin 4096) (b : Fin 256) (h : (addrArr m c (ix2 b n)).toNat < 65536) :
    ((V m c main_v72 : S4096x256x1.Idx → BitVec 32) (ix3 n b 0)).toNat = (addrArr m c (ix2 b n)).toNat / 256 := by
  rw [hi_eq, broadcastInDim_apply _ _ _ (ix3 n b 0) (ix2 n b) (fun a => match a with | ⟨0, _⟩ => rfl | ⟨1, _⟩ => rfl),
    quotArr_apply, transpose_ix2_apply]
  exact toNat_fdivWord _ h

/-- The remainder array, at neuron `n` and batch entry `b`: the address modulo 256. -/
theorem lo_apply (c : Dev nD) (n : Fin 4096) (b : Fin 256) (h : (addrArr m c (ix2 b n)).toNat < 65536) :
    ((V m c main_v73 : S4096x256x1.Idx → BitVec 32) (ix3 n b 0)).toNat = (addrArr m c (ix2 b n)).toNat % 256 := by
  rw [lo_eq, broadcastInDim_apply _ _ _ (ix3 n b 0) (ix2 n b) (fun a => match a with | ⟨0, _⟩ => rfl | ⟨1, _⟩ => rfl),
    remArr_apply, transpose_ix2_apply]
  exact toNat_sub_mul_256 _ _ h (toNat_fdivWord _ h)

/-- The table viewed as 4096 × 256 × 256: entry `(n, h, l)` is the table's entry `(n, 256 h + l)`. -/
theorem table_apply (c : Dev nD) (n : Fin 4096) (h l : Fin 256) :
    (V m c main_v74 : S4096x256x256.Idx → BitVec 32) (ix3 n h l)
      = (m ((c.tc : Thread nD τ).loc main_arg2) : S4096x65536.Idx → BitVec 32)
          (ix2 n ⟨h.val * 256 + l.val, by have := h.isLt; have := l.isLt; omega⟩) := by
  rw [table_eq]
  refine shapeCast_apply _ _ _ _ ?_
  show (S4096x65536.rowMajor _).val = (S4096x256x256.rowMajor _).val
  rw [Shape.rowMajor_val_two, Shape.rowMajor_val_three]
  show n.val * 65536 + (h.val * 256 + l.val) = (n.val * 256 + h.val) * 256 + l.val
  omega

end Cert.KernelIdeal.Host

end
-- ==== Proof.KernelArray.lean ====
/-
  From blocks to the result. Grid point `t` works on neurons 32 t … 32 t + 31: its table block is rows 32 t + j of the
  table viewed as 4096 × 256 × 256, its two index blocks the same rows of the quotient and remainder arrays, and it
  writes back rows 32 t + j of the region's output [4096 neurons, 256 batch entries]. By the block function and the
  one-hot selection, entry (32 t + j, b) written back is the table's entry at neuron 32 t + j and the address of
  (b, 32 t + j) (256 · quotient + remainder). The 128 blocks tile the output, so the whole output array is that lookup,
  and the program's last line transposes it to [batch, neuron].
-/
import proofs.«419713_j21818433864466_3_alg».proof.Proof.KernelBlock
import proofs.«419713_j21818433864466_3_alg».proof.Proof.Select
import proofs.«419713_j21818433864466_3_alg».proof.Proof.KernelHost
import Idealize.ShloMosaic.Lib.Pipeline.Value
import Idealize.ShloMosaic.Lib.ValueLayout
import Idealize.ShloMosaic.Lib.StableHlo.Run

set_option maxRecDepth 16384

noncomputable section

namespace Cert.KernelIdeal.Arr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The printed index maps, decided over the 128 grid points: every window's block index on its leading axis is the
    point's number, and zero on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem N_eq : cfg0.N = 128 := N_0

/-- Two indices below a bound with equal values are equal. -/
theorem fin_mk_congr {n : Nat} (x y : Nat) (hx : x < n) (hy : y < n) (h : x = y) : (⟨x, hx⟩ : Fin n) = ⟨y, hy⟩ := by
  subst h; rfl

section Reads

variable {F : FTy → Type} [FloatOps F]

/-- Row `j` of point `t`'s block of a 4096 × 256 × 256 array is the array's row `32 t + j`. -/
theorem read_blk0 (X : Vec F S4096x256x256 .i32) (t : Fin cfg0.N) (j : Fin 32) (h l : Fin 256) (hr : t.val * 32 + j.val < 4096) :
    (((cfg0.win 0).blk t).view.read (Elt F) X : S32x256x256.Idx → BitVec 32) (ix3 j h l) = X (ix3 ⟨t.val * 32 + j.val, hr⟩ h l) := by
  obtain ⟨e0, e1, e2, -⟩ := idx_facts t
  show X (((cfg0.win 0).blk t).view.emb (ix3 j h l)) = X _
  congr 1
  funext a
  apply Fin.ext
  match a with
  | ⟨0, _⟩ => show win0_0.index t (0 : Fin 3) * 32 + 1 * j.val = t.val * 32 + j.val; omega
  | ⟨1, _⟩ => show win0_0.index t (1 : Fin 3) * 256 + 1 * h.val = h.val; omega
  | ⟨2, _⟩ => show win0_0.index t (2 : Fin 3) * 256 + 1 * l.val = l.val; omega

/-- Row `j` of point `t`'s block of a 4096 × 256 × 1 array (window 1) is the array's row `32 t + j`. -/
theorem read_blk1 (X : Vec F S4096x256x1 .i32) (t : Fin cfg0.N) (j : Fin 32) (b : Fin 256) (z : Fin 1) (hr : t.val * 32 + j.val < 4096) :
    (((cfg0.win 1).blk t).view.read (Elt F) X : S32x256x1.Idx → BitVec 32) (ix3 j b z) = X (ix3 ⟨t.val * 32 + j.val, hr⟩ b z) := by
  obtain ⟨-, -, -, e0, e1, e2, -⟩ := idx_facts t
  show X (((cfg0.win 1).blk t).view.emb (ix3 j b z)) = X _
  congr 1
  funext a
  apply Fin.ext
  have hz : z.val = 0 := by have := z.isLt; omega
  match a with
  | ⟨0, _⟩ => show win0_1.index t (0 : Fin 3) * 32 + 1 * j.val = t.val * 32 + j.val; omega
  | ⟨1, _⟩ => show win0_1.index t (1 : Fin 3) * 256 + 1 * b.val = b.val; omega
  | ⟨2, _⟩ => show win0_1.index t (2 : Fin 3) * 1 + 1 * z.val = z.val; omega

/-- The same for window 2. -/
theorem read_blk2 (X : Vec F S4096x256x1 .i32) (t : Fin cfg0.N) (j : Fin 32) (b : Fin 256) (z : Fin 1) (hr : t.val * 32 + j.val < 4096) :
    (((cfg0.win 2).blk t).view.read (Elt F) X : S32x256x1.Idx → BitVec 32) (ix3 j b z) = X (ix3 ⟨t.val * 32 + j.val, hr⟩ b z) := by
  obtain ⟨-, -, -, -, -, -, e0, e1, e2, -⟩ := idx_facts t
  show X (((cfg0.win 2).blk t).view.emb (ix3 j b z)) = X _
  congr 1
  funext a
  apply Fin.ext
  have hz : z.val = 0 := by have := z.isLt; omega
  match a with
  | ⟨0, _⟩ => show win0_2.index t (0 : Fin 3) * 32 + 1 * j.val = t.val * 32 + j.val; omega
  | ⟨1, _⟩ => show win0_2.index t (1 : Fin 3) * 256 + 1 * b.val = b.val; omega
  | ⟨2, _⟩ => show win0_2.index t (2 : Fin 3) * 1 + 1 * z.val = z.val; omega

end Reads

section AnyFloats

variable {F : FTy → Type} [FloatOps F]
variable (m : (ℓ : Loc nD τ sig) → Buf (Elt F) ℓ)

/-- What point `t` writes back, at `(j, b)`: the trip vector of row `j` of its three input blocks, at `b`. -/
theorem flushed_apply (c : Dev nD) (t : Fin cfg0.N) (j : Fin 32) (b : Fin 256) :
    ((dats m 0 c).flushed 3 t : S32x256.Idx → Elt F .i32) (ix2 j b)
      = k0_pay1 (Block.tableRow (iblk m c 0 t) j) (Block.wordRow (iblk m c 1 t) j) (Block.wordRow (iblk m c 2 t) j) (ix2 0 b) := by
  show (cfg0.win 3).cut (grid0.coords t) ((dats m 0 c).after 3 t) (ix2 j b) = _
  rw [after0_3]
  exact Block.out_apply c (grid0.coords t) (ms0_0 t) (hs0_0 t) (ms0_1 t) (hs0_1 t) (ms0_2 t) (hs0_2 t) (ms0_3 t) (hs0_3 t)
    (iblk m c 0 t) (iblk m c 1 t) (iblk m c 2 t) j b

/-- The arrays the three input windows read are the table view, the quotient array and the remainder array. -/
theorem V_arr0 (c : Dev nD) : (V m c (Pipeline.arrRef spec0 0) : S4096x256x256.Idx → BitVec 32) = V m c main_v74 := rfl
theorem V_arr1 (c : Dev nD) : (V m c (Pipeline.arrRef spec0 1) : S4096x256x1.Idx → BitVec 32) = V m c main_v72 := rfl
theorem V_arr2 (c : Dev nD) : (V m c (Pipeline.arrRef spec0 2) : S4096x256x1.Idx → BitVec 32) = V m c main_v73 := rfl

/-- Row `j` of point `t`'s table block is row `32 t + j` of the table view. -/
theorem tblk_apply (c : Dev nD) (t : Fin cfg0.N) (j : Fin 32) (h l : Fin 256) (hr : t.val * 32 + j.val < 4096) :
    (Block.tableRow (iblk m c 0 t) j (ix3 0 h l) : BitVec 32)
      = (V m c main_v74 : S4096x256x256.Idx → BitVec 32) (ix3 ⟨t.val * 32 + j.val, hr⟩ h l) :=
  (read_blk0 (V m c (Pipeline.arrRef spec0 0)) t j h l hr).trans (congrFun (V_arr0 m c) _)

/-- Word `b` of row `j` of point `t`'s quotient block is the quotient array's word at `(32 t + j, b)`. -/
theorem hword_apply (c : Dev nD) (t : Fin cfg0.N) (j : Fin 32) (b : Fin 256) (hr : t.val * 32 + j.val < 4096) :
    (Block.wordRow (iblk m c 1 t) j (ix3 0 b 0) : BitVec 32)
      = (V m c main_v72 : S4096x256x1.Idx → BitVec 32) (ix3 ⟨t.val * 32 + j.val, hr⟩ b 0) :=
  (read_blk1 (V m c (Pipeline.arrRef spec0 1)) t j b 0 hr).trans (congrFun (V_arr1 m c) _)

/-- Word `b` of row `j` of point `t`'s remainder block is the remainder array's word at `(32 t + j, b)`. -/
theorem lword_apply (c : Dev nD) (t : Fin cfg0.N) (j : Fin 32) (b : Fin 256) (hr : t.val * 32 + j.val < 4096) :
    (Block.wordRow (iblk m c 2 t) j (ix3 0 b 0) : BitVec 32)
      = (V m c main_v73 : S4096x256x1.Idx → BitVec 32) (ix3 ⟨t.val * 32 + j.val, hr⟩ b 0) :=
  (read_blk2 (V m c (Pipeline.arrRef spec0 2)) t j b 0 hr).trans (congrFun (V_arr2 m c) _)

end AnyFloats

/-- An index of the output array is in point `t`'s block iff each coordinate is in the block's range on its axis. -/
theorem mem_blk (t : Fin cfg0.N) (i : S4096x256.Idx) :
    i ∈ ((cfg0.win 3).blk t).view.set ↔ ∀ a : Fin 2, win0_3.index t a * S32x256.size a ≤ (i a).val
      ∧ (i a).val < win0_3.index t a * S32x256.size a + S32x256.size a := by
  show i ∈ ((View.whole main_v75).slice (win0_3.rect t)).set ↔ _
  rw [View.set_slice_whole, Rect.mem_set_unit]
  exact Iff.rfl

/-- The 128 written-back blocks tile the output: neuron row `r` lies in the block of point `r / 32`. -/
theorem cover (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 128 := N_0
  have ht : (i 0).val / 32 < cfg0.N := by rw [hN]; omega
  refine ⟨⟨(i 0).val / 32, ht⟩, flush0_3 _, ?_⟩
  rw [mem_blk]
  obtain ⟨-, -, -, -, -, -, -, -, -, e0, e1⟩ := idx_facts ⟨(i 0).val / 32, ht⟩
  have e0' : win0_3.index ⟨(i 0).val / 32, ht⟩ (0 : Fin 2) = (i 0).val / 32 := e0
  intro a
  match a with
  | ⟨0, _⟩ =>
    show win0_3.index ⟨(i 0).val / 32, ht⟩ (0 : Fin 2) * 32 ≤ (i 0).val
      ∧ (i 0).val < win0_3.index ⟨(i 0).val / 32, ht⟩ (0 : Fin 2) * 32 + 32
    omega
  | ⟨1, _⟩ =>
    show win0_3.index ⟨(i 0).val / 32, ht⟩ (1 : Fin 2) * 256 ≤ (i 1).val
      ∧ (i 1).val < win0_3.index ⟨(i 0).val / 32, ht⟩ (1 : Fin 2) * 256 + 256
    omega

section AtTheExtendedReals

variable (m : (ℓ : Loc nD τ sig) → Buf (Elt Ideal) ℓ) (ρ : Dev nD → PrngReg)

/-- The region's output as ONE function of the arrays it is launched on: at neuron `n` and batch entry `b` the table's
    entry at row `n` and the address of `(b, n)`. -/
def regionOut (c : Dev nD) (hA : ∀ i, (Host.addrArr m c i).toNat < 65536) : S4096x256.Idx → BitVec 32 :=
  fun i => (m ((c.tc : Thread nD τ).loc main_arg2) : S4096x65536.Idx → BitVec 32)
    (ix2 (i 0) ⟨(Host.addrArr m c (ix2 (i 1) (i 0))).toNat, hA _⟩)

/-- What point `t` writes back is block `t` of `regionOut`: the two index words of `(32 t + j, b)` are the address's
    quotient and remainder by 256, both below 256, so the one-hot selection returns the table's entry at the address. -/
theorem flushed_eq (c : Dev nD) (hA : ∀ i, (Host.addrArr m c i).toNat < 65536) (t : Fin cfg0.N) :
    (dats m 0 c).flushed 3 t = ((cfg0.win 3).blk t).view.read (Elt Ideal) (regionOut m c hA) := by
  funext y
  obtain ⟨j, b, rfl⟩ : ∃ (j : Fin 32) (b : Fin 256), y = ix2 j b := ⟨y 0, y 1, eq_ix2 y⟩
  have htN : t.val < 128 := Nat.lt_of_lt_of_le t.isLt (Nat.le_of_eq N_eq)
  have hj : j.val < 32 := j.isLt
  have hr : t.val * 32 + j.val < 4096 := by omega
  obtain ⟨-, -, -, -, -, -, -, -, -, e0, e1⟩ := idx_facts t
  have hemb : ((cfg0.win 3).blk t).view.emb (ix2 j b) = (ix2 (⟨t.val * 32 + j.val, hr⟩ : Fin 4096) b : S4096x256.Idx) := by
    funext a; apply Fin.ext
    match a with
    | ⟨0, _⟩ => show win0_3.index t (0 : Fin 2) * 32 + 1 * j.val = t.val * 32 + j.val; omega
    | ⟨1, _⟩ => show win0_3.index t (1 : Fin 2) * 256 + 1 * b.val = b.val; omega
  refine (flushed_apply m c t j b).trans ?_
  show _ = regionOut m c hA (((cfg0.win 3).blk t).view.emb (ix2 j b))
  rw [hemb]
  have hA' := hA (ix2 b ⟨t.val * 32 + j.val, hr⟩)
  have hhi : (Block.wordRow (iblk m c 1 t) j (ix3 0 b 0)).toNat
      = (Host.addrArr m c (ix2 b ⟨t.val * 32 + j.val, hr⟩)).toNat / 256 :=
    (congrArg BitVec.toNat (hword_apply m c t j b hr)).trans (Host.hi_apply m c ⟨t.val * 32 + j.val, hr⟩ b hA')
  have hlo : (Block.wordRow (iblk m c 2 t) j (ix3 0 b 0)).toNat
      = (Host.addrArr m c (ix2 b ⟨t.val * 32 + j.val, hr⟩)).toNat % 256 :=
    (congrArg BitVec.toNat (lword_apply m c t j b hr)).trans (Host.lo_apply m c ⟨t.val * 32 + j.val, hr⟩ b hA')
  have h1 : (Block.wordRow (iblk m c 1 t) j (ix3 0 b 0)).toNat < 256 := by rw [hhi]; omega
  have h2 : (Block.wordRow (iblk m c 2 t) j (ix3 0 b 0)).toNat < 256 := by rw [hlo]; omega
  refine (Select.pay_apply _ _ _ b h1 h2).trans ?_
  refine (tblk_apply m c t j ⟨_, h1⟩ ⟨_, h2⟩ hr).trans ?_
  rw [Host.table_apply]
  unfold regionOut
  have hnum : (Block.wordRow (iblk m c 1 t) j (ix3 0 b 0)).toNat * 256 + (Block.wordRow (iblk m c 2 t) j (ix3 0 b 0)).toNat
      = (Host.addrArr m c (ix2 b ⟨t.val * 32 + j.val, hr⟩)).toNat := by
    rw [hhi, hlo]
    exact Nat.div_add_mod' _ 256
  have hq : (⟨(Block.wordRow (iblk m c 1 t) j (ix3 0 b 0)).toNat * 256 + (Block.wordRow (iblk m c 2 t) j (ix3 0 b 0)).toNat,
        by rw [hnum]; exact hA'⟩ : Fin 65536)
      = ⟨(Host.addrArr m c (ix2 b ⟨t.val * 32 + j.val, hr⟩)).toNat, hA'⟩ := fin_mk_congr _ _ _ _ hnum
  exact congrArg (fun q : Fin 65536 => (m ((c.tc : Thread nD τ).loc main_arg2) : S4096x65536.Idx → BitVec 32)
    (ix2 (⟨t.val * 32 + j.val, hr⟩ : Fin 4096) q)) hq

/-- The region's output array after the run. -/
theorem final (c : Dev nD) (hA : ∀ i, (Host.addrArr m c i).toNat < 65536) :
    (dats m 0 c).arrAt 3 cfg0.N = regionOut m c hA :=
  (dats m 0 c).arrAt_eq_of_cover 3 (regionOut m c hA) (fun t _ => flushed_eq m c hA t) cover

/-- The program's result: at batch entry `b` and neuron `n` the table's entry at row `n` and the address of `(b, n)`. -/
def result (c : Dev nD) (hA : ∀ i, (Host.addrArr m c i).toNat < 65536) : S256x4096.Idx → BitVec 32 :=
  fun i => (m ((c.tc : Thread nD τ).loc main_arg2) : S4096x65536.Idx → BitVec 32)
    (ix2 (i 1) ⟨(Host.addrArr m c i).toNat, hA i⟩)

/-- The line after the region transposes the region's output. -/
theorem tail_eq (c : Dev nD) (hA : ∀ i, (Host.addrArr m c i).toNat < 65536) :
    Pipeline.afterTail₀ cfgs (dats m) 0 (V0 m) [hostOps1] c main_v76 = result m c hA := by
  unfold Pipeline.afterTail₀
  show StableHlo.after hostOps1 _ (Proc.devRef .tc main_v76) = _
  after_results
  rw [(Pipeline.withArrays_arr spec0 launch0.win.arr_inj c _ _ 3).trans (final m c hA)]
  funext i
  obtain ⟨b, n, rfl⟩ : ∃ (b : Fin 256) (n : Fin 4096), i = ix2 b n := ⟨i 0, i 1, eq_ix2 i⟩
  rw [transpose_ix2_apply]
  rfl

/-- The kernel program's run: every weakly fair execution terminates with the result array at the lookup, the arguments
    unchanged — given that every address is in range. -/
theorem run (hA : ∀ c i, (Host.addrArr m c i).toNat < 65536) :
    θ_run defs (onTc (τ := τ) (main (F := Ideal))) ⟨m, fun _ => 0, ρ⟩ fun r => ∀ c : Dev nD,
      r.2.mem ((c.tc : Thread nD τ).loc main_v76) = result m c (hA c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v76 (Pipeline.mem_restRefs_of main_v76 (by decide) (by decide))).trans (tail_eq m c (hA c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end AtTheExtendedReals

end Cert.KernelIdeal.Arr

end
-- ==== Proof.KernelAddr.lean ====
/-
  The kernel program's host lines up to the address sum are the reference's own lines: the address array the region's
  prefix leaves is the reference's address stage of the same two arguments.

  The lines come in seventeen stretches. The weights 2 ^ k (k < 16) are computed by repeated squaring, each round reading
  its accumulator twice, so the composed term of the address array doubles with every round. The proof therefore goes
  stretch by stretch: after each stretch, every buffer a later stretch still reads holds the reference's stage of that
  name, and a stage is compared with the previous ones one definition deep only.
-/
import proofs.«419713_j21818433864466_3_alg».proof.Proof.Gen.KernelIdeal.Frame
import proofs.«419713_j21818433864466_3_alg».proof.Proof.RefReadP
import Idealize.ShloMosaic.Lib.StableHlo.Run

set_option maxRecDepth 16384

noncomputable section

namespace Cert.KernelIdeal.Addr

open Idealize.ShloMosaic Idealize.ShloMosaic.TcCoe Idealize.SL.Sem
open Cert.KernelIdeal Cert.KernelIdeal.Gen
open Cert.ReferenceIdeal.ReadP

variable {F : FTy → Type} [FloatOps F]

/-- A TensorCore reference as a device buffer. -/
local notation:max "⟪" r "⟫" => Proc.devRef Proc.tc r

/-- A stretch none of whose lines writes a buffer leaves that buffer as it was: each line writes its own result
    buffer only, and that is another reference. -/
local macro "keeps " o:ident : tactic => `(tactic|
  (refine StableHlo.after_of_forall_not_mem _ _ (List.forall_iff_forall_mem.mp ?_)
   simp only [$o:ident, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-! ## What each stretch computes, from any contents

Each statement is for ANY contents `V` before the stretch: the buffer a later stretch reads holds the reference's
stage, given that the stretch's own inputs hold theirs. -/

/-! ### The first stretch: the gathered bits, the lane numbers, and the first selection's operands -/

theorem s0_v7 (V : Valuation τ sig (Elt F)) :
    (StableHlo.after hostOps0 V ⟪main_v7⟫ : S256x4096x16.Idx → BitVec 32)
      = val_main_v7 (F := F) (V ⟪main_arg0⟫) (V ⟪main_arg1⟫) := by
  simp only [hostOps0]
  after_results
  rfl

theorem s0_v8 (V : Valuation τ sig (Elt F)) :
    (StableHlo.after hostOps0 V ⟪main_v8⟫ : S16.Idx → BitVec 32) = val_main_v8 (F := F) := by
  simp only [hostOps0]
  after_results
  rfl

theorem s0_v13 (V : Valuation τ sig (Elt F)) :
    (StableHlo.after hostOps0 V ⟪main_v13⟫ : S16.Idx → BitVec 1) = val_main_v13 (F := F) := by
  simp only [hostOps0]
  after_results
  rfl

theorem s0_c4 (V : Valuation τ sig (Elt F)) :
    (StableHlo.after hostOps0 V ⟪main_c_4⟫ : S_.Idx → BitVec 32) = val_main_c_4 (F := F) := by
  simp only [hostOps0]
  after_results
  rfl

theorem s0_c5 (V : Valuation τ sig (Elt F)) :
    (StableHlo.after hostOps0 V ⟪main_c_5⟫ : S_.Idx → BitVec 32) = val_main_c_5 (F := F) := by
  simp only [hostOps0]
  after_results
  rfl

/-! ### The first selection: the accumulator starts at one in every lane -/

theorem s1_v14 (V : Valuation τ sig (Elt F))
    (h13 : (V ⟪main_v13⟫ : S16.Idx → BitVec 1) = val_main_v13 (F := F))
    (hc4 : (V ⟪main_c_4⟫ : S_.Idx → BitVec 32) = val_main_c_4 (F := F))
    (hc5 : (V ⟪main_c_5⟫ : S_.Idx → BitVec 32) = val_main_c_5 (F := F)) :
    (StableHlo.after hostOps0_1 V ⟪main_v14⟫ : S16.Idx → BitVec 32) = val_main_v14 (F := F) := by
  simp only [hostOps0_1]
  after_results
  rw [h13, hc4, hc5]
  rfl

theorem k1_v7 (V : Valuation τ sig (Elt F)) : StableHlo.after hostOps0_1 V ⟪main_v7⟫ = V ⟪main_v7⟫ := by
  keeps hostOps0_1
theorem k1_v8 (V : Valuation τ sig (Elt F)) : StableHlo.after hostOps0_1 V ⟪main_v8⟫ = V ⟪main_v8⟫ := by
  keeps hostOps0_1

/-! ### Round 0: bit 0 of the lane number, and the accumulator times the base 2 -/

theorem s2_v16 (V : Valuation τ sig (Elt F))
    (h8 : (V ⟪main_v8⟫ : S16.Idx → BitVec 32) = val_main_v8 (F := F)) :
    (StableHlo.after hostOps0_2 V ⟪main_v16⟫ : S16.Idx → BitVec 32) = val_main_v16 (F := F) := by
  simp only [hostOps0_2]
  after_results
  rw [h8]
  rfl

theorem s2_v18 (V : Valuation τ sig (Elt F))
    (h14 : (V ⟪main_v14⟫ : S16.Idx → BitVec 32) = val_main_v14 (F := F)) :
    (StableHlo.after hostOps0_2 V ⟪main_v18⟫ : S16.Idx → BitVec 32) = val_main_v18 (F := F) := by
  simp only [hostOps0_2]
  after_results
  rw [h14]
  rfl

theorem k2_v7 (V : Valuation τ sig (Elt F)) : StableHlo.after hostOps0_2 V ⟪main_v7⟫ = V ⟪main_v7⟫ := by
  keeps hostOps0_2
theorem k2_v8 (V : Valuation τ sig (Elt F)) : StableHlo.after hostOps0_2 V ⟪main_v8⟫ = V ⟪main_v8⟫ := by
  keeps hostOps0_2
theorem k2_v14 (V : Valuation τ sig (Elt F)) : StableHlo.after hostOps0_2 V ⟪main_v14⟫ = V ⟪main_v14⟫ := by
  keeps hostOps0_2

theorem s3_v19 (V : Valuation τ sig (Elt F))
    (h16 : (V ⟪main_v16⟫ : S16.Idx → BitVec 32) = val_main_v16 (F := F))
    (h18 : (V ⟪main_v18⟫ : S16.Idx → BitVec 32) = val_main_v18 (F := F))
    (h14 : (V ⟪main_v14⟫ : S16.Idx → BitVec 32) = val_main_v14 (F := F)) :
    (StableHlo.after hostOps0_3 V ⟪main_v19⟫ : S16.Idx → BitVec 32) = val_main_v19 (F := F) := by
  simp only [hostOps0_3]
  after_results
  rw [h16, h18, h14]
  rfl

theorem k3_v7 (V : Valuation τ sig (Elt F)) : StableHlo.after hostOps0_3 V ⟪main_v7⟫ = V ⟪main_v7⟫ := by
  keeps hostOps0_3
theorem k3_v8 (V : Valuation τ sig (Elt F)) : StableHlo.after hostOps0_3 V ⟪main_v8⟫ = V ⟪main_v8⟫ := by
  keeps hostOps0_3

/-! ### Round 1: the base squared (4), the lane number shifted once, its low bit, the accumulator times the base -/

theorem s4_v20 (V : Valuation τ sig (Elt F)) :
    (StableHlo.after hostOps0_4 V ⟪main_v20⟫ : S_.Idx → BitVec 32) = val_main_v20 (F := F) := by
  simp only [hostOps0_4]
  after_results
  rfl

theorem s4_v22 (V : Valuation τ sig (Elt F))
    (h8 : (V ⟪main_v8⟫ : S16.Idx → BitVec 32) = val_main_v8 (F := F)) :
    (StableHlo.after hostOps0_4 V ⟪main_v22⟫ : S16.Idx → BitVec 32) = val_main_v22 (F := F) := by
  simp only [hostOps0_4]
  after_results
  rw [h8]
  rfl

theorem s4_v24 (V : Valuation τ sig (Elt F))
    (h8 : (V ⟪main_v8⟫ : S16.Idx → BitVec 32) = val_main_v8 (F := F)) :
    (StableHlo.after hostOps0_4 V ⟪main_v24⟫ : S16.Idx → BitVec 32) = val_main_v24 (F := F) := by
  simp only [hostOps0_4]
  after_results
  rw [h8]
  rfl

theorem s4_v26 (V : Valuation τ sig (Elt F))
    (h19 : (V ⟪main_v19⟫ : S16.Idx → BitVec 32) = val_main_v19 (F := F)) :
    (StableHlo.after hostOps0_4 V ⟪main_v26⟫ : S16.Idx → BitVec 32) = val_main_v26 (F := F) := by
  simp only [hostOps0_4]
  after_results
  rw [h19]
  rfl

theorem k4_v7 (V : Valuation τ sig (Elt F)) : StableHlo.after hostOps0_4 V ⟪main_v7⟫ = V ⟪main_v7⟫ := by
  keeps hostOps0_4
theorem k4_v19 (V : Valuation τ sig (Elt F)) : StableHlo.after hostOps0_4 V ⟪main_v19⟫ = V ⟪main_v19⟫ := by
  keeps hostOps0_4

theorem s5_v27 (V : Valuation τ sig (Elt F))
    (h24 : (V ⟪main_v24⟫ : S16.Idx → BitVec 32) = val_main_v24 (F := F))
    (h26 : (V ⟪main_v26⟫ : S16.Idx → BitVec 32) = val_main_v26 (F := F))
    (h19 : (V ⟪main_v19⟫ : S16.Idx → BitVec 32) = val_main_v19 (F := F)) :
    (StableHlo.after hostOps0_5 V ⟪main_v27⟫ : S16.Idx → BitVec 32) = val_main_v27 (F := F) := by
  simp only [hostOps0_5]
  after_results
  rw [h24, h26, h19]
  rfl

theorem k5_v7 (V : Valuation τ sig (Elt F)) : StableHlo.after hostOps0_5 V ⟪main_v7⟫ = V ⟪main_v7⟫ := by
  keeps hostOps0_5
theorem k5_v20 (V : Valuation τ sig (Elt F)) : StableHlo.after hostOps0_5 V ⟪main_v20⟫ = V ⟪main_v20⟫ := by
  keeps hostOps0_5
theorem k5_v22 (V : Valuation τ sig (Elt F)) : StableHlo.after hostOps0_5 V ⟪main_v22⟫ = V ⟪main_v22⟫ := by
  keeps hostOps0_5

/-! ### Round 2: the base 16 -/

theorem s6_v28 (V : Valuation τ sig (Elt F))
    (h20 : (V ⟪main_v20⟫ : S_.Idx → BitVec 32) = val_main_v20 (F := F)) :
    (StableHlo.after hostOps0_6 V ⟪main_v28⟫ : S_.Idx → BitVec 32) = val_main_v28 (F := F) := by
  simp only [hostOps0_6]
  after_results
  rw [h20]
  rfl

theorem s6_v30 (V : Valuation τ sig (Elt F))
    (h22 : (V ⟪main_v22⟫ : S16.Idx → BitVec 32) = val_main_v22 (F := F)) :
    (StableHlo.after hostOps0_6 V ⟪main_v30⟫ : S16.Idx → BitVec 32) = val_main_v30 (F := F) := by
  simp only [hostOps0_6]
  after_results
  rw [h22]
  rfl

theorem s6_v32 (V : Valuation τ sig (Elt F))
    (h22 : (V ⟪main_v22⟫ : S16.Idx → BitVec 32) = val_main_v22 (F := F)) :
    (StableHlo.after hostOps0_6 V ⟪main_v32⟫ : S16.Idx → BitVec 32) = val_main_v32 (F := F) := by
  simp only [hostOps0_6]
  after_results
  rw [h22]
  rfl

theorem s6_v34 (V : Valuation τ sig (Elt F))
    (h27 : (V ⟪main_v27⟫ : S16.Idx → BitVec 32) = val_main_v27 (F := F))
    (h20 : (V ⟪main_v20⟫ : S_.Idx → BitVec 32) = val_main_v20 (F := F)) :
    (StableHlo.after hostOps0_6 V ⟪main_v34⟫ : S16.Idx → BitVec 32) = val_main_v34 (F := F) := by
  simp only [hostOps0_6]
  after_results
  rw [h27, h20]
  rfl

theorem k6_v7 (V : Valuation τ sig (Elt F)) : StableHlo.after hostOps0_6 V ⟪main_v7⟫ = V ⟪main_v7⟫ := by
  keeps hostOps0_6
theorem k6_v27 (V : Valuation τ sig (Elt F)) : StableHlo.after hostOps0_6 V ⟪main_v27⟫ = V ⟪main_v27⟫ := by
  keeps hostOps0_6

theorem s7_v35 (V : Valuation τ sig (Elt F))
    (h32 : (V ⟪main_v32⟫ : S16.Idx → BitVec 32) = val_main_v32 (F := F))
    (h34 : (V ⟪main_v34⟫ : S16.Idx → BitVec 32) = val_main_v34 (F := F))
    (h27 : (V ⟪main_v27⟫ : S16.Idx → BitVec 32) = val_main_v27 (F := F)) :
    (StableHlo.after hostOps0_7 V ⟪main_v35⟫ : S16.Idx → BitVec 32) = val_main_v35 (F := F) := by
  simp only [hostOps0_7]
  after_results
  rw [h32, h34, h27]
  rfl

theorem k7_v7 (V : Valuation τ sig (Elt F)) : StableHlo.after hostOps0_7 V ⟪main_v7⟫ = V ⟪main_v7⟫ := by
  keeps hostOps0_7
theorem k7_v28 (V : Valuation τ sig (Elt F)) : StableHlo.after hostOps0_7 V ⟪main_v28⟫ = V ⟪main_v28⟫ := by
  keeps hostOps0_7
theorem k7_v30 (V : Valuation τ sig (Elt F)) : StableHlo.after hostOps0_7 V ⟪main_v30⟫ = V ⟪main_v30⟫ := by
  keeps hostOps0_7

/-! ### Round 3: the base 256 -/

theorem s8_v36 (V : Valuation τ sig (Elt F))
    (h28 : (V ⟪main_v28⟫ : S_.Idx → BitVec 32) = val_main_v28 (F := F)) :
    (StableHlo.after hostOps0_8 V ⟪main_v36⟫ : S_.Idx → BitVec 32) = val_main_v36 (F := F) := by
  simp only [hostOps0_8]
  after_results
  rw [h28]
  rfl

theorem s8_v38 (V : Valuation τ sig (Elt F))
    (h30 : (V ⟪main_v30⟫ : S16.Idx → BitVec 32) = val_main_v30 (F := F)) :
    (StableHlo.after hostOps0_8 V ⟪main_v38⟫ : S16.Idx → BitVec 32) = val_main_v38 (F := F) := by
  simp only [hostOps0_8]
  after_results
  rw [h30]
  rfl

theorem s8_v40 (V : Valuation τ sig (Elt F))
    (h30 : (V ⟪main_v30⟫ : S16.Idx → BitVec 32) = val_main_v30 (F := F)) :
    (StableHlo.after hostOps0_8 V ⟪main_v40⟫ : S16.Idx → BitVec 32) = val_main_v40 (F := F) := by
  simp only [hostOps0_8]
  after_results
  rw [h30]
  rfl

theorem s8_v42 (V : Valuation τ sig (Elt F))
    (h35 : (V ⟪main_v35⟫ : S16.Idx → BitVec 32) = val_main_v35 (F := F))
    (h28 : (V ⟪main_v28⟫ : S_.Idx → BitVec 32) = val_main_v28 (F := F)) :
    (StableHlo.after hostOps0_8 V ⟪main_v42⟫ : S16.Idx → BitVec 32) = val_main_v42 (F := F) := by
  simp only [hostOps0_8]
  after_results
  rw [h35, h28]
  rfl

theorem k8_v7 (V : Valuation τ sig (Elt F)) : StableHlo.after hostOps0_8 V ⟪main_v7⟫ = V ⟪main_v7⟫ := by
  keeps hostOps0_8
theorem k8_v35 (V : Valuation τ sig (Elt F)) : StableHlo.after hostOps0_8 V ⟪main_v35⟫ = V ⟪main_v35⟫ := by
  keeps hostOps0_8

theorem s9_v43 (V : Valuation τ sig (Elt F))
    (h40 : (V ⟪main_v40⟫ : S16.Idx → BitVec 32) = val_main_v40 (F := F))
    (h42 : (V ⟪main_v42⟫ : S16.Idx → BitVec 32) = val_main_v42 (F := F))
    (h35 : (V ⟪main_v35⟫ : S16.Idx → BitVec 32) = val_main_v35 (F := F)) :
    (StableHlo.after hostOps0_9 V ⟪main_v43⟫ : S16.Idx → BitVec 32) = val_main_v43 (F := F) := by
  simp only [hostOps0_9]
  after_results
  rw [h40, h42, h35]
  rfl

theorem k9_v7 (V : Valuation τ sig (Elt F)) : StableHlo.after hostOps0_9 V ⟪main_v7⟫ = V ⟪main_v7⟫ := by
  keeps hostOps0_9
theorem k9_v36 (V : Valuation τ sig (Elt F)) : StableHlo.after hostOps0_9 V ⟪main_v36⟫ = V ⟪main_v36⟫ := by
  keeps hostOps0_9
theorem k9_v38 (V : Valuation τ sig (Elt F)) : StableHlo.after hostOps0_9 V ⟪main_v38⟫ = V ⟪main_v38⟫ := by
  keeps hostOps0_9

/-! ### Round 4: the base 65536 -/

theorem s10_v44 (V : Valuation τ sig (Elt F))
    (h36 : (V ⟪main_v36⟫ : S_.Idx → BitVec 32) = val_main_v36 (F := F)) :
    (StableHlo.after hostOps0_10 V ⟪main_v44⟫ : S_.Idx → BitVec 32) = val_main_v44 (F := F) := by
  simp only [hostOps0_10]
  after_results
  rw [h36]
  rfl

theorem s10_v46 (V : Valuation τ sig (Elt F))
    (h38 : (V ⟪main_v38⟫ : S16.Idx → BitVec 32) = val_main_v38 (F := F)) :
    (StableHlo.after hostOps0_10 V ⟪main_v46⟫ : S16.Idx → BitVec 32) = val_main_v46 (F := F) := by
  simp only [hostOps0_10]
  after_results
  rw [h38]
  rfl

theorem s10_v48 (V : Valuation τ sig (Elt F))
    (h38 : (V ⟪main_v38⟫ : S16.Idx → BitVec 32) = val_main_v38 (F := F)) :
    (StableHlo.after hostOps0_10 V ⟪main_v48⟫ : S16.Idx → BitVec 32) = val_main_v48 (F := F) := by
  simp only [hostOps0_10]
  after_results
  rw [h38]
  rfl

theorem s10_v50 (V : Valuation τ sig (Elt F))
    (h43 : (V ⟪main_v43⟫ : S16.Idx → BitVec 32) = val_main_v43 (F := F))
    (h36 : (V ⟪main_v36⟫ : S_.Idx → BitVec 32) = val_main_v36 (F := F)) :
    (StableHlo.after hostOps0_10 V ⟪main_v50⟫ : S16.Idx → BitVec 32) = val_main_v50 (F := F) := by
  simp only [hostOps0_10]
  after_results
  rw [h43, h36]
  rfl

theorem k10_v7 (V : Valuation τ sig (Elt F)) : StableHlo.after hostOps0_10 V ⟪main_v7⟫ = V ⟪main_v7⟫ := by
  keeps hostOps0_10
theorem k10_v43 (V : Valuation τ sig (Elt F)) : StableHlo.after hostOps0_10 V ⟪main_v43⟫ = V ⟪main_v43⟫ := by
  keeps hostOps0_10

theorem s11_v51 (V : Valuation τ sig (Elt F))
    (h48 : (V ⟪main_v48⟫ : S16.Idx → BitVec 32) = val_main_v48 (F := F))
    (h50 : (V ⟪main_v50⟫ : S16.Idx → BitVec 32) = val_main_v50 (F := F))
    (h43 : (V ⟪main_v43⟫ : S16.Idx → BitVec 32) = val_main_v43 (F := F)) :
    (StableHlo.after hostOps0_11 V ⟪main_v51⟫ : S16.Idx → BitVec 32) = val_main_v51 (F := F) := by
  simp only [hostOps0_11]
  after_results
  rw [h48, h50, h43]
  rfl

theorem k11_v7 (V : Valuation τ sig (Elt F)) : StableHlo.after hostOps0_11 V ⟪main_v7⟫ = V ⟪main_v7⟫ := by
  keeps hostOps0_11
theorem k11_v44 (V : Valuation τ sig (Elt F)) : StableHlo.after hostOps0_11 V ⟪main_v44⟫ = V ⟪main_v44⟫ := by
  keeps hostOps0_11
theorem k11_v46 (V : Valuation τ sig (Elt F)) : StableHlo.after hostOps0_11 V ⟪main_v46⟫ = V ⟪main_v46⟫ := by
  keeps hostOps0_11

/-! ### Round 5: the last square, the last bit -/

theorem s12_v56 (V : Valuation τ sig (Elt F))
    (h46 : (V ⟪main_v46⟫ : S16.Idx → BitVec 32) = val_main_v46 (F := F)) :
    (StableHlo.after hostOps0_12 V ⟪main_v56⟫ : S16.Idx → BitVec 32) = val_main_v56 (F := F) := by
  simp only [hostOps0_12]
  after_results
  rw [h46]
  rfl

theorem s12_v58 (V : Valuation τ sig (Elt F))
    (h51 : (V ⟪main_v51⟫ : S16.Idx → BitVec 32) = val_main_v51 (F := F))
    (h44 : (V ⟪main_v44⟫ : S_.Idx → BitVec 32) = val_main_v44 (F := F)) :
    (StableHlo.after hostOps0_12 V ⟪main_v58⟫ : S16.Idx → BitVec 32) = val_main_v58 (F := F) := by
  simp only [hostOps0_12]
  after_results
  rw [h51, h44]
  rfl

theorem k12_v7 (V : Valuation τ sig (Elt F)) : StableHlo.after hostOps0_12 V ⟪main_v7⟫ = V ⟪main_v7⟫ := by
  keeps hostOps0_12
theorem k12_v51 (V : Valuation τ sig (Elt F)) : StableHlo.after hostOps0_12 V ⟪main_v51⟫ = V ⟪main_v51⟫ := by
  keeps hostOps0_12

theorem s13_v59 (V : Valuation τ sig (Elt F))
    (h56 : (V ⟪main_v56⟫ : S16.Idx → BitVec 32) = val_main_v56 (F := F))
    (h58 : (V ⟪main_v58⟫ : S16.Idx → BitVec 32) = val_main_v58 (F := F))
    (h51 : (V ⟪main_v51⟫ : S16.Idx → BitVec 32) = val_main_v51 (F := F)) :
    (StableHlo.after hostOps0_13 V ⟪main_v59⟫ : S16.Idx → BitVec 32) = val_main_v59 (F := F) := by
  simp only [hostOps0_13]
  after_results
  rw [h56, h58, h51]
  rfl

theorem k13_v7 (V : Valuation τ sig (Elt F)) : StableHlo.after hostOps0_13 V ⟪main_v7⟫ = V ⟪main_v7⟫ := by
  keeps hostOps0_13

/-! ### The address: the gathered bits weighted lane by lane and summed over the sixteen lanes -/

theorem s14_v66 (V : Valuation τ sig (Elt F)) (a0 : S256x1024.Idx → BitVec 1) (a1 : S4096x16.Idx → BitVec 32)
    (h7 : (V ⟪main_v7⟫ : S256x4096x16.Idx → BitVec 32) = val_main_v7 (F := F) a0 a1)
    (h59 : (V ⟪main_v59⟫ : S16.Idx → BitVec 32) = val_main_v59 (F := F)) :
    (StableHlo.after hostOps0_14 V ⟪main_v66⟫ : S256x4096.Idx → BitVec 32) = val_main_v66 (F := F) a0 a1 := by
  simp only [hostOps0_14]
  after_results
  rw [h7, h59]
  rfl

/-! ### The two stretches after it (the floor division and the block indices) write other buffers -/

theorem k15_v66 (V : Valuation τ sig (Elt F)) : StableHlo.after hostOps0_15 V ⟪main_v66⟫ = V ⟪main_v66⟫ := by
  keeps hostOps0_15
theorem k16_v66 (V : Valuation τ sig (Elt F)) : StableHlo.after hostOps0_16 V ⟪main_v66⟫ = V ⟪main_v66⟫ := by
  keeps hostOps0_16

/-! ## The invariant, stretch by stretch

`Iₖ a0 a1 V`: contents `V` hold, at every buffer the stretches from the `k`-th on still read on the way to the address, the
reference's stage of that name at the arguments `a0`, `a1`. -/

structure I1 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v8 : (V ⟪main_v8⟫ : S16.Idx → BitVec 32) = val_main_v8 (F := F)
  v13 : (V ⟪main_v13⟫ : S16.Idx → BitVec 1) = val_main_v13 (F := F)
  c4 : (V ⟪main_c_4⟫ : S_.Idx → BitVec 32) = val_main_c_4 (F := F)
  c5 : (V ⟪main_c_5⟫ : S_.Idx → BitVec 32) = val_main_c_5 (F := F)

structure I2 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v8 : (V ⟪main_v8⟫ : S16.Idx → BitVec 32) = val_main_v8 (F := F)
  v14 : (V ⟪main_v14⟫ : S16.Idx → BitVec 32) = val_main_v14 (F := F)

structure I3 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v8 : (V ⟪main_v8⟫ : S16.Idx → BitVec 32) = val_main_v8 (F := F)
  v14 : (V ⟪main_v14⟫ : S16.Idx → BitVec 32) = val_main_v14 (F := F)
  v16 : (V ⟪main_v16⟫ : S16.Idx → BitVec 32) = val_main_v16 (F := F)
  v18 : (V ⟪main_v18⟫ : S16.Idx → BitVec 32) = val_main_v18 (F := F)

structure I4 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v8 : (V ⟪main_v8⟫ : S16.Idx → BitVec 32) = val_main_v8 (F := F)
  v19 : (V ⟪main_v19⟫ : S16.Idx → BitVec 32) = val_main_v19 (F := F)

structure I5 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v19 : (V ⟪main_v19⟫ : S16.Idx → BitVec 32) = val_main_v19 (F := F)
  v20 : (V ⟪main_v20⟫ : S_.Idx → BitVec 32) = val_main_v20 (F := F)
  v22 : (V ⟪main_v22⟫ : S16.Idx → BitVec 32) = val_main_v22 (F := F)
  v24 : (V ⟪main_v24⟫ : S16.Idx → BitVec 32) = val_main_v24 (F := F)
  v26 : (V ⟪main_v26⟫ : S16.Idx → BitVec 32) = val_main_v26 (F := F)

structure I6 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v20 : (V ⟪main_v20⟫ : S_.Idx → BitVec 32) = val_main_v20 (F := F)
  v22 : (V ⟪main_v22⟫ : S16.Idx → BitVec 32) = val_main_v22 (F := F)
  v27 : (V ⟪main_v27⟫ : S16.Idx → BitVec 32) = val_main_v27 (F := F)

structure I7 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v27 : (V ⟪main_v27⟫ : S16.Idx → BitVec 32) = val_main_v27 (F := F)
  v28 : (V ⟪main_v28⟫ : S_.Idx → BitVec 32) = val_main_v28 (F := F)
  v30 : (V ⟪main_v30⟫ : S16.Idx → BitVec 32) = val_main_v30 (F := F)
  v32 : (V ⟪main_v32⟫ : S16.Idx → BitVec 32) = val_main_v32 (F := F)
  v34 : (V ⟪main_v34⟫ : S16.Idx → BitVec 32) = val_main_v34 (F := F)

structure I8 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v28 : (V ⟪main_v28⟫ : S_.Idx → BitVec 32) = val_main_v28 (F := F)
  v30 : (V ⟪main_v30⟫ : S16.Idx → BitVec 32) = val_main_v30 (F := F)
  v35 : (V ⟪main_v35⟫ : S16.Idx → BitVec 32) = val_main_v35 (F := F)

structure I9 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v35 : (V ⟪main_v35⟫ : S16.Idx → BitVec 32) = val_main_v35 (F := F)
  v36 : (V ⟪main_v36⟫ : S_.Idx → BitVec 32) = val_main_v36 (F := F)
  v38 : (V ⟪main_v38⟫ : S16.Idx → BitVec 32) = val_main_v38 (F := F)
  v40 : (V ⟪main_v40⟫ : S16.Idx → BitVec 32) = val_main_v40 (F := F)
  v42 : (V ⟪main_v42⟫ : S16.Idx → BitVec 32) = val_main_v42 (F := F)

structure I10 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v36 : (V ⟪main_v36⟫ : S_.Idx → BitVec 32) = val_main_v36 (F := F)
  v38 : (V ⟪main_v38⟫ : S16.Idx → BitVec 32) = val_main_v38 (F := F)
  v43 : (V ⟪main_v43⟫ : S16.Idx → BitVec 32) = val_main_v43 (F := F)

structure I11 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v43 : (V ⟪main_v43⟫ : S16.Idx → BitVec 32) = val_main_v43 (F := F)
  v44 : (V ⟪main_v44⟫ : S_.Idx → BitVec 32) = val_main_v44 (F := F)
  v46 : (V ⟪main_v46⟫ : S16.Idx → BitVec 32) = val_main_v46 (F := F)
  v48 : (V ⟪main_v48⟫ : S16.Idx → BitVec 32) = val_main_v48 (F := F)
  v50 : (V ⟪main_v50⟫ : S16.Idx → BitVec 32) = val_main_v50 (F := F)

structure I12 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v44 : (V ⟪main_v44⟫ : S_.Idx → BitVec 32) = val_main_v44 (F := F)
  v46 : (V ⟪main_v46⟫ : S16.Idx → BitVec 32) = val_main_v46 (F := F)
  v51 : (V ⟪main_v51⟫ : S16.Idx → BitVec 32) = val_main_v51 (F := F)

structure I13 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v51 : (V ⟪main_v51⟫ : S16.Idx → BitVec 32) = val_main_v51 (F := F)
  v56 : (V ⟪main_v56⟫ : S16.Idx → BitVec 32) = val_main_v56 (F := F)
  v58 : (V ⟪main_v58⟫ : S16.Idx → BitVec 32) = val_main_v58 (F := F)

structure I14 (a0 : S256x1024.Idx → BitVec 1) (a1 : S4096x16.Idx → BitVec 32) (V : Valuation τ sig (Elt F)) : Prop where
  v7 : (V ⟪main_v7⟫ : S256x4096x16.Idx → BitVec 32) = val_main_v7 (F := F) a0 a1
  v59 : (V ⟪main_v59⟫ : S16.Idx → BitVec 32) = val_main_v59 (F := F)

section Steps

variable {a0 : S256x1024.Idx → BitVec 1} {a1 : S4096x16.Idx → BitVec 32} (V : Valuation τ sig (Elt F))

theorem step0 : I1 (F := F) (V ⟪main_arg0⟫) (V ⟪main_arg1⟫) (StableHlo.after hostOps0 V) :=
  ⟨s0_v7 V, s0_v8 V, s0_v13 V, s0_c4 V, s0_c5 V⟩

theorem step1 (h : I1 a0 a1 V) : I2 a0 a1 (StableHlo.after hostOps0_1 V) :=
  ⟨(k1_v7 V).trans h.v7, (k1_v8 V).trans h.v8, s1_v14 V h.v13 h.c4 h.c5⟩

theorem step2 (h : I2 a0 a1 V) : I3 a0 a1 (StableHlo.after hostOps0_2 V) :=
  ⟨(k2_v7 V).trans h.v7, (k2_v8 V).trans h.v8, (k2_v14 V).trans h.v14, s2_v16 V h.v8, s2_v18 V h.v14⟩

theorem step3 (h : I3 a0 a1 V) : I4 a0 a1 (StableHlo.after hostOps0_3 V) :=
  ⟨(k3_v7 V).trans h.v7, (k3_v8 V).trans h.v8, s3_v19 V h.v16 h.v18 h.v14⟩

theorem step4 (h : I4 a0 a1 V) : I5 a0 a1 (StableHlo.after hostOps0_4 V) :=
  ⟨(k4_v7 V).trans h.v7, (k4_v19 V).trans h.v19, s4_v20 V, s4_v22 V h.v8, s4_v24 V h.v8, s4_v26 V h.v19⟩

theorem step5 (h : I5 a0 a1 V) : I6 a0 a1 (StableHlo.after hostOps0_5 V) :=
  ⟨(k5_v7 V).trans h.v7, (k5_v20 V).trans h.v20, (k5_v22 V).trans h.v22, s5_v27 V h.v24 h.v26 h.v19⟩

theorem step6 (h : I6 a0 a1 V) : I7 a0 a1 (StableHlo.after hostOps0_6 V) :=
  ⟨(k6_v7 V).trans h.v7, (k6_v27 V).trans h.v27, s6_v28 V h.v20, s6_v30 V h.v22, s6_v32 V h.v22, s6_v34 V h.v27 h.v20⟩

theorem step7 (h : I7 a0 a1 V) : I8 a0 a1 (StableHlo.after hostOps0_7 V) :=
  ⟨(k7_v7 V).trans h.v7, (k7_v28 V).trans h.v28, (k7_v30 V).trans h.v30, s7_v35 V h.v32 h.v34 h.v27⟩

theorem step8 (h : I8 a0 a1 V) : I9 a0 a1 (StableHlo.after hostOps0_8 V) :=
  ⟨(k8_v7 V).trans h.v7, (k8_v35 V).trans h.v35, s8_v36 V h.v28, s8_v38 V h.v30, s8_v40 V h.v30, s8_v42 V h.v35 h.v28⟩

theorem step9 (h : I9 a0 a1 V) : I10 a0 a1 (StableHlo.after hostOps0_9 V) :=
  ⟨(k9_v7 V).trans h.v7, (k9_v36 V).trans h.v36, (k9_v38 V).trans h.v38, s9_v43 V h.v40 h.v42 h.v35⟩

theorem step10 (h : I10 a0 a1 V) : I11 a0 a1 (StableHlo.after hostOps0_10 V) :=
  ⟨(k10_v7 V).trans h.v7, (k10_v43 V).trans h.v43, s10_v44 V h.v36, s10_v46 V h.v38, s10_v48 V h.v38, s10_v50 V h.v43 h.v36⟩

theorem step11 (h : I11 a0 a1 V) : I12 a0 a1 (StableHlo.after hostOps0_11 V) :=
  ⟨(k11_v7 V).trans h.v7, (k11_v44 V).trans h.v44, (k11_v46 V).trans h.v46, s11_v51 V h.v48 h.v50 h.v43⟩

theorem step12 (h : I12 a0 a1 V) : I13 a0 a1 (StableHlo.after hostOps0_12 V) :=
  ⟨(k12_v7 V).trans h.v7, (k12_v51 V).trans h.v51, s12_v56 V h.v46, s12_v58 V h.v51 h.v44⟩

theorem step13 (h : I13 a0 a1 V) : I14 a0 a1 (StableHlo.after hostOps0_13 V) :=
  ⟨(k13_v7 V).trans h.v7, s13_v59 V h.v56 h.v58 h.v51⟩

theorem step14 (h : I14 a0 a1 V) :
    (StableHlo.after hostOps0_14 V ⟪main_v66⟫ : S256x4096.Idx → BitVec 32) = val_main_v66 (F := F) a0 a1 :=
  s14_v66 V a0 a1 h.v7 h.v59

end Steps

/-! ## The kernel's address array -/

variable (m : (ℓ : Loc nD τ sig) → Buf (Elt F) ℓ)

/-- The kernel's address array is the reference's address stage of the same arguments. -/
theorem kaddr_eq (c : Dev nD) :
    (V m c main_v66 : S256x4096.Idx → BitVec 32)
      = Cert.ReferenceIdeal.ReadP.val_main_v66 (F := F) (m ((c.tc : Thread nD τ).loc main_arg0)) (m ((c.tc : Thread nD τ).loc main_arg1)) := by
  have h := step14 _ (step13 _ (step12 _ (step11 _ (step10 _ (step9 _ (step8 _ (step7 _ (step6 _ (step5 _ (step4 _
    (step3 _ (step2 _ (step1 _ (step0 (F := F) (fun b => m (c, b))))))))))))))))
  show StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16]) (fun b => m (c, b)) ⟪main_v66⟫ = _
  simp only [List.flatten_cons, List.flatten_nil, List.append_nil, StableHlo.after_append]
  rw [k16_v66, k15_v66]
  exact h

end Cert.KernelIdeal.Addr

end
-- ==== Proof.RefRun.lean ====
/-
  The reference program's run, read back stage by stage: every weakly fair execution of its host lines terminates with
  the result array at the last stage's value (the table read at the neuron's row and the computed address), the
  arguments unchanged. The line-by-line fold of the operations is cut into stretches; each stretch's results are the
  stages' values of what the stretch before left.
-/
import proofs.«419713_j21818433864466_3_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

open Cert.ReferenceIdeal.ValueP

variable {F : FTy → Type} [FloatOps F]

/-- The fold over a line is the fold over its tail from the fold over its head. -/
theorem after_take_drop (n : Nat) (l : List (HloOp τ sig (Elt F))) (V : Valuation τ sig (Elt F)) :
    after l V = after (l.drop n) (after (l.take n) V) := by
  rw [← StableHlo.after_append, List.take_append_drop]

/-! ## The stretches

The 131 lines are cut where few buffers are still to be read: after the widened bits (%7), after the start of the
power chain (%14), after each round of the squaring, after the summed address (%66), after the two wrapped indices
(%73, %78). `rK` is what is left of the lines after the first K stretches, `sX` the stretch itself. -/

/-- %c … %7: the wrapped addresses' bits, gathered from the first argument and widened. -/
abbrev sA : List (HloOp τ sig (Elt F)) := (ops (F := F)).take 10
abbrev r1 : List (HloOp τ sig (Elt F)) := (ops (F := F)).drop 10
/-- %8 … %14: the lane index and the power chain's start (one in every lane). -/
abbrev sB : List (HloOp τ sig (Elt F)) := (r1 (F := F)).take 14
abbrev r2 : List (HloOp τ sig (Elt F)) := (r1 (F := F)).drop 14
/-- %15 … %22: first round of the power by squaring. -/
abbrev sC1 : List (HloOp τ sig (Elt F)) := (r2 (F := F)).take 16
abbrev r3 : List (HloOp τ sig (Elt F)) := (r2 (F := F)).drop 16
/-- %23 … %30: second round. -/
abbrev sC2 : List (HloOp τ sig (Elt F)) := (r3 (F := F)).take 13
abbrev r4 : List (HloOp τ sig (Elt F)) := (r3 (F := F)).drop 13
/-- %31 … %38: third round. -/
abbrev sC3 : List (HloOp τ sig (Elt F)) := (r4 (F := F)).take 13
abbrev r5 : List (HloOp τ sig (Elt F)) := (r4 (F := F)).drop 13
/-- %39 … %46: fourth round. -/
abbrev sC4 : List (HloOp τ sig (Elt F)) := (r5 (F := F)).take 13
abbrev r6 : List (HloOp τ sig (Elt F)) := (r5 (F := F)).drop 13
/-- %47 … %54: fifth round. -/
abbrev sC5 : List (HloOp τ sig (Elt F)) := (r6 (F := F)).take 13
abbrev r7 : List (HloOp τ sig (Elt F)) := (r6 (F := F)).drop 13
/-- %55 … %59: the last round: the lanes' powers of two. -/
abbrev sC6 : List (HloOp τ sig (Elt F)) := (r7 (F := F)).take 9
abbrev r8 : List (HloOp τ sig (Elt F)) := (r7 (F := F)).drop 9
/-- %60 … %66: the bits weighted by the powers and summed over the lanes: the address. -/
abbrev sD : List (HloOp τ sig (Elt F)) := (r8 (F := F)).take 9
abbrev r9 : List (HloOp τ sig (Elt F)) := (r8 (F := F)).drop 9
/-- %67 … %78: the row index and the address, each wrapped into range. -/
abbrev sE : List (HloOp τ sig (Elt F)) := (r9 (F := F)).take 16
abbrev r10 : List (HloOp τ sig (Elt F)) := (r9 (F := F)).drop 16
/-- %79 … %83: the index pairs and the read of the table. -/
abbrev sG : List (HloOp τ sig (Elt F)) := (r10 (F := F))

/-! ## What the buffers still to be read hold at each cut, as stages of the three arguments -/

/-- After %c … %7. -/
structure CutA (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v7 : V (Proc.devRef .tc main_v7) = ReadP.val_main_v7 (F := F) x0 x1
  arg2 : V (Proc.devRef .tc main_arg2) = x2

/-- After %8 … %14. -/
structure CutB (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v8 : V (Proc.devRef .tc main_v8) = ReadP.val_main_v8 (F := F)
  v14 : V (Proc.devRef .tc main_v14) = ReadP.val_main_v14 (F := F)
  v7 : V (Proc.devRef .tc main_v7) = ReadP.val_main_v7 (F := F) x0 x1
  arg2 : V (Proc.devRef .tc main_arg2) = x2

/-- After %15 … %22. -/
structure CutC1 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v19 : V (Proc.devRef .tc main_v19) = ReadP.val_main_v19 (F := F)
  v20 : V (Proc.devRef .tc main_v20) = ReadP.val_main_v20 (F := F)
  v22 : V (Proc.devRef .tc main_v22) = ReadP.val_main_v22 (F := F)
  v7 : V (Proc.devRef .tc main_v7) = ReadP.val_main_v7 (F := F) x0 x1
  arg2 : V (Proc.devRef .tc main_arg2) = x2

/-- After %23 … %30. -/
structure CutC2 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v27 : V (Proc.devRef .tc main_v27) = ReadP.val_main_v27 (F := F)
  v28 : V (Proc.devRef .tc main_v28) = ReadP.val_main_v28 (F := F)
  v30 : V (Proc.devRef .tc main_v30) = ReadP.val_main_v30 (F := F)
  v7 : V (Proc.devRef .tc main_v7) = ReadP.val_main_v7 (F := F) x0 x1
  arg2 : V (Proc.devRef .tc main_arg2) = x2

/-- After %31 … %38. -/
structure CutC3 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v35 : V (Proc.devRef .tc main_v35) = ReadP.val_main_v35 (F := F)
  v36 : V (Proc.devRef .tc main_v36) = ReadP.val_main_v36 (F := F)
  v38 : V (Proc.devRef .tc main_v38) = ReadP.val_main_v38 (F := F)
  v7 : V (Proc.devRef .tc main_v7) = ReadP.val_main_v7 (F := F) x0 x1
  arg2 : V (Proc.devRef .tc main_arg2) = x2

/-- After %39 … %46. -/
structure CutC4 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v43 : V (Proc.devRef .tc main_v43) = ReadP.val_main_v43 (F := F)
  v44 : V (Proc.devRef .tc main_v44) = ReadP.val_main_v44 (F := F)
  v46 : V (Proc.devRef .tc main_v46) = ReadP.val_main_v46 (F := F)
  v7 : V (Proc.devRef .tc main_v7) = ReadP.val_main_v7 (F := F) x0 x1
  arg2 : V (Proc.devRef .tc main_arg2) = x2

/-- After %47 … %54. -/
structure CutC5 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v51 : V (Proc.devRef .tc main_v51) = ReadP.val_main_v51 (F := F)
  v52 : V (Proc.devRef .tc main_v52) = ReadP.val_main_v52 (F := F)
  v54 : V (Proc.devRef .tc main_v54) = ReadP.val_main_v54 (F := F)
  v7 : V (Proc.devRef .tc main_v7) = ReadP.val_main_v7 (F := F) x0 x1
  arg2 : V (Proc.devRef .tc main_arg2) = x2

/-- After %55 … %59. -/
structure CutC6 (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v59 : V (Proc.devRef .tc main_v59) = ReadP.val_main_v59 (F := F)
  v7 : V (Proc.devRef .tc main_v7) = ReadP.val_main_v7 (F := F) x0 x1
  arg2 : V (Proc.devRef .tc main_arg2) = x2

/-- After %60 … %66. -/
structure CutD (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v66 : V (Proc.devRef .tc main_v66) = ReadP.val_main_v66 (F := F) x0 x1
  arg2 : V (Proc.devRef .tc main_arg2) = x2

/-- After %67 … %78. -/
structure CutE (V : Valuation τ sig (Elt F)) (x0 : (⟨S256x1024, .i1⟩ : BufTy).Contents (Elt F)) (x1 : (⟨S4096x16, .i32⟩ : BufTy).Contents (Elt F)) (x2 : (⟨S4096x65536, .i32⟩ : BufTy).Contents (Elt F)) : Prop where
  v73 : V (Proc.devRef .tc main_v73) = ReadP.val_main_v73 (F := F)
  v78 : V (Proc.devRef .tc main_v78) = ReadP.val_main_v78 (F := F) x0 x1
  arg2 : V (Proc.devRef .tc main_arg2) = x2

/-! ## Each stretch takes one cut to the next -/

set_option maxRecDepth 8192 in
theorem cutA (V : Valuation τ sig (Elt F)) :
    CutA (after (sA (F := F)) V) (V (Proc.devRef .tc main_arg0)) (V (Proc.devRef .tc main_arg1)) (V (Proc.devRef .tc main_arg2)) := by
  simp only [sA, ValueP.ops, List.take, List.drop]
  refine ⟨?_, ?_⟩
  · after_results_simp
    try simp only [TRef.ofBuf, TRef.toBuf, cast_eq]
    rfl
  · after_results_simp

set_option maxRecDepth 8192 in
theorem cutB {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutA V x0 x1 x2) :
    CutB (after (sB (F := F)) V) x0 x1 x2 := by
  simp only [sB, r1, ValueP.ops, List.take, List.drop]
  refine ⟨?_, ?_, ?_, ?_⟩
  · after_results_simp
    try simp only [TRef.ofBuf, TRef.toBuf, cast_eq]
    rfl
  · after_results_simp
    try simp only [TRef.ofBuf, TRef.toBuf, cast_eq]
    rfl
  · after_results_simp
    exact h.v7
  · after_results_simp
    exact h.arg2

set_option maxRecDepth 8192 in
theorem cutC1 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutB V x0 x1 x2) :
    CutC1 (after (sC1 (F := F)) V) x0 x1 x2 := by
  simp only [sC1, r2, r1, ValueP.ops, List.take, List.drop]
  refine ⟨?_, ?_, ?_, ?_, ?_⟩
  · after_results_simp
    try simp only [TRef.ofBuf, TRef.toBuf, cast_eq]
    rw [h.v8, h.v14]
    rfl
  · after_results_simp
    try simp only [TRef.ofBuf, TRef.toBuf, cast_eq]
    rfl
  · after_results_simp
    try simp only [TRef.ofBuf, TRef.toBuf, cast_eq]
    rw [h.v8]
    rfl
  · after_results_simp
    exact h.v7
  · after_results_simp
    exact h.arg2

set_option maxRecDepth 8192 in
theorem cutC2 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC1 V x0 x1 x2) :
    CutC2 (after (sC2 (F := F)) V) x0 x1 x2 := by
  simp only [sC2, r3, r2, r1, ValueP.ops, List.take, List.drop]
  refine ⟨?_, ?_, ?_, ?_, ?_⟩
  · after_results_simp
    try simp only [TRef.ofBuf, TRef.toBuf, cast_eq]
    rw [h.v22, h.v20, h.v19]
    rfl
  · after_results_simp
    try simp only [TRef.ofBuf, TRef.toBuf, cast_eq]
    rw [h.v20]
    rfl
  · after_results_simp
    try simp only [TRef.ofBuf, TRef.toBuf, cast_eq]
    rw [h.v22]
    rfl
  · after_results_simp
    exact h.v7
  · after_results_simp
    exact h.arg2

set_option maxRecDepth 8192 in
theorem cutC3 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC2 V x0 x1 x2) :
    CutC3 (after (sC3 (F := F)) V) x0 x1 x2 := by
  simp only [sC3, r4, r3, r2, r1, ValueP.ops, List.take, List.drop]
  refine ⟨?_, ?_, ?_, ?_, ?_⟩
  · after_results_simp
    try simp only [TRef.ofBuf, TRef.toBuf, cast_eq]
    rw [h.v30, h.v28, h.v27]
    rfl
  · after_results_simp
    try simp only [TRef.ofBuf, TRef.toBuf, cast_eq]
    rw [h.v28]
    rfl
  · after_results_simp
    try simp only [TRef.ofBuf, TRef.toBuf, cast_eq]
    rw [h.v30]
    rfl
  · after_results_simp
    exact h.v7
  · after_results_simp
    exact h.arg2

set_option maxRecDepth 8192 in
theorem cutC4 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC3 V x0 x1 x2) :
    CutC4 (after (sC4 (F := F)) V) x0 x1 x2 := by
  simp only [sC4, r5, r4, r3, r2, r1, ValueP.ops, List.take, List.drop]
  refine ⟨?_, ?_, ?_, ?_, ?_⟩
  · after_results_simp
    try simp only [TRef.ofBuf, TRef.toBuf, cast_eq]
    rw [h.v38, h.v36, h.v35]
    rfl
  · after_results_simp
    try simp only [TRef.ofBuf, TRef.toBuf, cast_eq]
    rw [h.v36]
    rfl
  · after_results_simp
    try simp only [TRef.ofBuf, TRef.toBuf, cast_eq]
    rw [h.v38]
    rfl
  · after_results_simp
    exact h.v7
  · after_results_simp
    exact h.arg2

set_option maxRecDepth 8192 in
theorem cutC5 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC4 V x0 x1 x2) :
    CutC5 (after (sC5 (F := F)) V) x0 x1 x2 := by
  simp only [sC5, r6, r5, r4, r3, r2, r1, ValueP.ops, List.take, List.drop]
  refine ⟨?_, ?_, ?_, ?_, ?_⟩
  · after_results_simp
    try simp only [TRef.ofBuf, TRef.toBuf, cast_eq]
    rw [h.v46, h.v44, h.v43]
    rfl
  · after_results_simp
    try simp only [TRef.ofBuf, TRef.toBuf, cast_eq]
    rw [h.v44]
    rfl
  · after_results_simp
    try simp only [TRef.ofBuf, TRef.toBuf, cast_eq]
    rw [h.v46]
    rfl
  · after_results_simp
    exact h.v7
  · after_results_simp
    exact h.arg2

set_option maxRecDepth 8192 in
theorem cutC6 {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC5 V x0 x1 x2) :
    CutC6 (after (sC6 (F := F)) V) x0 x1 x2 := by
  simp only [sC6, r7, r6, r5, r4, r3, r2, r1, ValueP.ops, List.take, List.drop]
  refine ⟨?_, ?_, ?_⟩
  · after_results_simp
    try simp only [TRef.ofBuf, TRef.toBuf, cast_eq]
    rw [h.v54, h.v52, h.v51]
    rfl
  · after_results_simp
    exact h.v7
  · after_results_simp
    exact h.arg2

set_option maxRecDepth 8192 in
theorem cutD {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutC6 V x0 x1 x2) :
    CutD (after (sD (F := F)) V) x0 x1 x2 := by
  simp only [sD, r8, r7, r6, r5, r4, r3, r2, r1, ValueP.ops, List.take, List.drop]
  refine ⟨?_, ?_⟩
  · after_results_simp
    try simp only [TRef.ofBuf, TRef.toBuf, cast_eq]
    rw [h.v7, h.v59]
    rfl
  · after_results_simp
    exact h.arg2

set_option maxRecDepth 8192 in
theorem cutE {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutD V x0 x1 x2) :
    CutE (after (sE (F := F)) V) x0 x1 x2 := by
  simp only [sE, r9, r8, r7, r6, r5, r4, r3, r2, r1, ValueP.ops, List.take, List.drop]
  refine ⟨?_, ?_, ?_⟩
  · after_results_simp
    try simp only [TRef.ofBuf, TRef.toBuf, cast_eq]
    rfl
  · after_results_simp
    try simp only [TRef.ofBuf, TRef.toBuf, cast_eq]
    rw [h.v66]
    rfl
  · after_results_simp
    exact h.arg2

set_option maxRecDepth 8192 in
theorem cutG {V : Valuation τ sig (Elt F)} {x0 : (⟨S256x1024, .i1⟩ : BufTy).Contents (Elt F)} {x1 : (⟨S4096x16, .i32⟩ : BufTy).Contents (Elt F)} {x2 : (⟨S4096x65536, .i32⟩ : BufTy).Contents (Elt F)}
    (h : CutE V x0 x1 x2) :
    after (sG (F := F)) V (Proc.devRef .tc main_v83) = ReadP.val_main_v83 (F := F) x0 x1 x2 := by
  simp only [sG, r10, r9, r8, r7, r6, r5, r4, r3, r2, r1, ValueP.ops, List.take, List.drop]
  after_results
  try simp only [TRef.ofBuf, TRef.toBuf, cast_eq]
  rw [h.v73, h.v78, h.arg2]
  rfl

/-! ## The whole line -/

/-- The result buffer after all the lines, from any contents: the last stage of what the three argument buffers held. -/
theorem after_ops_v83 (V : Valuation τ sig (Elt F)) :
    after (ops (F := F)) V (Proc.devRef .tc main_v83)
      = ReadP.val_main_v83 (F := F) (V (Proc.devRef .tc main_arg0)) (V (Proc.devRef .tc main_arg1)) (V (Proc.devRef .tc main_arg2)) := by
  rw [after_take_drop 10 (ops (F := F)),
    after_take_drop 14 (r1 (F := F)),
    after_take_drop 16 (r2 (F := F)),
    after_take_drop 13 (r3 (F := F)),
    after_take_drop 13 (r4 (F := F)),
    after_take_drop 13 (r5 (F := F)),
    after_take_drop 13 (r6 (F := F)),
    after_take_drop 9 (r7 (F := F)),
    after_take_drop 9 (r8 (F := F)),
    after_take_drop 16 (r9 (F := F))]
  exact cutG (cutE (cutD (cutC6 (cutC5 (cutC4 (cutC3 (cutC2 (cutC1 (cutB (cutA V))))))))))

set_option maxRecDepth 8192 in
set_option maxHeartbeats 4000000 in
/-- No line writes an argument's buffer: each argument ends as it began. -/
theorem ops_keep {r : Ref sig .tc} (hr : r = main_arg0 ∨ r = main_arg1 ∨ r = main_arg2) (V : Valuation τ sig (Elt F)) :
    after (ops (F := F)) V (Proc.devRef .tc r) = V (Proc.devRef .tc r) := by
  refine StableHlo.after_of_forall_not_mem _ _ (List.forall_iff_forall_mem.mp ?_)
  simp only [ValueP.ops, List.Forall, StableHlo.nullary_writes, StableHlo.unary_writes, StableHlo.binary_writes,
    StableHlo.ternary_writes, Finset.mem_singleton]
  rcases hr with rfl | rfl | rfl <;> (repeat' apply And.intro) <;> exact StableHlo.devRef_ne_of_ne (by decide)

/-- The reference's run: the result is the last stage of the arguments; the arguments are kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
          = ReadP.val_main_v83 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v83).trans (after_ops_v83 _),
      (h c main_arg0).trans (ops_keep (Or.inl rfl) _),
      (h c main_arg1).trans (ops_keep (Or.inr (Or.inl rfl)) _),
      (h c main_arg2).trans (ops_keep (Or.inr (Or.inr rfl)) _)⟩)
    (run_seq scopedRefs_eq scopedSems_eq defs main (fun _ => ops) main_eq (fun _ => ops_sub) m ρ)

end Cert.ReferenceIdeal.RunH

end
-- ==== Proof.RefAddr.lean ====
/-
  The address array is in range. Each address is the sum over sixteen wired input bits of bit · 2^k, the weights 2^k
  computed by the program's own power-by-squaring lines; a sum of sixteen terms, term k at most 2^k, is below 2^16, and
  nothing wraps in 32 bits.
-/
import proofs.«419713_j21818433864466_3_alg».proof.Proof.RefReadP
import Idealize.ShloMosaic.Lib.ValueIdx
import Idealize.ShloMosaic.Lib.StableHlo.Predicate
import Mathlib.Tactic.IntervalCases

noncomputable section

namespace Cert.ReferenceIdeal.Addr

open Cert.ReferenceIdeal Cert.ReferenceIdeal.Gen Idealize.ShloMosaic Idealize.ShloMosaic.TcCoe Idealize.ShloMosaic.ValueIdx Idealize.SL.Sem

variable {F : FTy → Type} [FloatOps F]

/-- One round of square-and-multiply: when the low bit of the exponent `e` is set the accumulator is multiplied by the
    current square, otherwise it is kept. -/
def rnd (e acc sq : BitVec 32) : BitVec 32 :=
  Scalar.select (IntOp.cmpi .ne (IntOp.andi e 1#32) 0#32) (IntOp.muli acc sq) acc

/-- The exponent halved. -/
def hlf (e : BitVec 32) : BitVec 32 := IntOp.shrui .host e 1#32

/-- The program's power of two by squaring, as a function of the exponent word: six rounds, the square going
    2, 4, 16, 256, 65536, 0 and the exponent halving each round. -/
def pw (e : BitVec 32) : BitVec 32 :=
  let a0 : BitVec 32 := Scalar.select (IntOp.andi (IntOp.cmpi .eq 2#32 0#32) (IntOp.cmpi .ne e 0#32)) 0#32 1#32
  let s1 : BitVec 32 := IntOp.muli 2#32 2#32
  let s2 : BitVec 32 := IntOp.muli s1 s1
  let s3 : BitVec 32 := IntOp.muli s2 s2
  let s4 : BitVec 32 := IntOp.muli s3 s3
  let s5 : BitVec 32 := IntOp.muli s4 s4
  let e1 := hlf e
  let e2 := hlf e1
  let e3 := hlf e2
  let e4 := hlf e3
  let e5 := hlf e4
  rnd e5 (rnd e4 (rnd e3 (rnd e2 (rnd e1 (rnd e a0 2#32) s1) s2) s3) s4) s5

theorem pw_ofNat (n : Nat) (hn : n < 16) : pw (BitVec.ofNat 32 n) = BitVec.ofNat 32 (2 ^ n) := by
  interval_cases n <;> decide

/-- The weight vector: entry `k` is the word 2^k. -/
theorem weight_eq (i : S16.Idx) : ReadP.val_main_v59 (F := F) i = BitVec.ofNat 32 (2 ^ (i 0).val) := by
  simp only [ReadP.val_main_v8_apply, ReadP.val_main_c_1_apply, ReadP.val_main_c_2_apply, ReadP.val_main_v9_apply, ReadP.val_main_c_3_apply, ReadP.val_main_v10_apply, ReadP.val_main_v11_apply, ReadP.val_main_v12_apply, ReadP.val_main_v13_apply, ReadP.val_main_c_4_apply, ReadP.val_main_c_5_apply, ReadP.val_main_call0_v0_apply, ReadP.val_main_call0_v1_apply, ReadP.val_main_v14_apply, ReadP.val_main_c_6_apply, ReadP.val_main_v15_apply, ReadP.val_main_v16_apply, ReadP.val_main_c_7_apply, ReadP.val_main_v17_apply, ReadP.val_main_v18_apply, ReadP.val_main_call1_c_apply, ReadP.val_main_call1_v0_apply, ReadP.val_main_call1_v1_apply, ReadP.val_main_v19_apply, ReadP.val_main_c_8_apply, ReadP.val_main_c_9_apply, ReadP.val_main_v20_apply, ReadP.val_main_c_10_apply, ReadP.val_main_v21_apply, ReadP.val_main_v22_apply, ReadP.val_main_c_11_apply, ReadP.val_main_v23_apply, ReadP.val_main_v24_apply, ReadP.val_main_v25_apply, ReadP.val_main_v26_apply, ReadP.val_main_call2_c_apply, ReadP.val_main_call2_v0_apply, ReadP.val_main_call2_v1_apply, ReadP.val_main_v27_apply, ReadP.val_main_v28_apply, ReadP.val_main_c_12_apply, ReadP.val_main_v29_apply, ReadP.val_main_v30_apply, ReadP.val_main_c_13_apply, ReadP.val_main_v31_apply, ReadP.val_main_v32_apply, ReadP.val_main_v33_apply, ReadP.val_main_v34_apply, ReadP.val_main_call3_c_apply, ReadP.val_main_call3_v0_apply, ReadP.val_main_call3_v1_apply, ReadP.val_main_v35_apply, ReadP.val_main_v36_apply, ReadP.val_main_c_14_apply, ReadP.val_main_v37_apply, ReadP.val_main_v38_apply, ReadP.val_main_c_15_apply, ReadP.val_main_v39_apply, ReadP.val_main_v40_apply, ReadP.val_main_v41_apply, ReadP.val_main_v42_apply, ReadP.val_main_call4_c_apply, ReadP.val_main_call4_v0_apply, ReadP.val_main_call4_v1_apply, ReadP.val_main_v43_apply, ReadP.val_main_v44_apply, ReadP.val_main_c_16_apply, ReadP.val_main_v45_apply, ReadP.val_main_v46_apply, ReadP.val_main_c_17_apply, ReadP.val_main_v47_apply, ReadP.val_main_v48_apply, ReadP.val_main_v49_apply, ReadP.val_main_v50_apply, ReadP.val_main_call5_c_apply, ReadP.val_main_call5_v0_apply, ReadP.val_main_call5_v1_apply, ReadP.val_main_v51_apply, ReadP.val_main_v52_apply, ReadP.val_main_c_18_apply, ReadP.val_main_v53_apply, ReadP.val_main_v54_apply, ReadP.val_main_c_19_apply, ReadP.val_main_v55_apply, ReadP.val_main_v56_apply, ReadP.val_main_v57_apply, ReadP.val_main_v58_apply, ReadP.val_main_call6_c_apply, ReadP.val_main_call6_v0_apply, ReadP.val_main_call6_v1_apply, ReadP.val_main_v59_apply]
  exact pw_ofNat (i 0).val (i 0).isLt

/-- Sixteen words, word `k` at most 2^k, add up without wrapping to less than 2^16. -/
theorem fold_lt (f : Fin 16 → BitVec 32) (hf : ∀ k, (f k).toNat ≤ 2 ^ k.val) :
    ((Finset.univ : Finset (Fin 16)).fold IntOp.addi 0#32 f).toNat < 65536 := by
  have hs : ∑ k : Fin 16, (f k).toNat ≤ ∑ k : Fin 16, 2 ^ k.val := Finset.sum_le_sum (fun k _ => hf k)
  have h2 : ∑ k : Fin 16, 2 ^ k.val = 65535 := by decide
  rw [StableHlo.Predicate.toNat_fold_addi _ _ (by omega)]
  omega

/-- A bit widened to a word, times a word of value 2^k with k < 16, has value at most 2^k. -/
theorem term_le (b : BitVec 1) (k : Nat) (hk : k < 16) :
    (IntOp.muli (b.setWidth 32) (BitVec.ofNat 32 (2 ^ k))).toNat ≤ 2 ^ k := by
  have hb : (b.setWidth 32).toNat ≤ 1 := by
    rw [BitVec.toNat_setWidth]; have := b.isLt; omega
  have hp : 2 ^ k ≤ 2 ^ 15 := Nat.pow_le_pow_right (by norm_num) (by omega)
  have hw : (BitVec.ofNat 32 (2 ^ k)).toNat = 2 ^ k := by
    rw [BitVec.toNat_ofNat]; exact Nat.mod_eq_of_lt (by omega)
  show ((b.setWidth 32) * (BitVec.ofNat 32 (2 ^ k))).toNat ≤ 2 ^ k
  rw [BitVec.toNat_mul, hw]
  have : (b.setWidth 32).toNat * 2 ^ k ≤ 1 * 2 ^ k := Nat.mul_le_mul_right _ hb
  exact le_trans (Nat.mod_le _ _) (by omega)

/-- Every address is below 65536. -/
theorem addr_lt (x0 : (⟨S256x1024, .i1⟩ : BufTy).Contents (Elt F)) (x1 : (⟨S4096x16, .i32⟩ : BufTy).Contents (Elt F))
    (i : S256x4096.Idx) : (ReadP.val_main_v66 (F := F) x0 x1 i).toNat < 65536 := by
  classical
  have hR : S256x4096x16.Reduces [2] S256x4096 := by decide
  unfold ReadP.val_main_v66
  rw [Host.reduce_eq_fold_single IntOp.addi _ _ reducesTo_S256x4096x16_S256x4096_d2 hR h_S_ i,
    ReadP.val_main_c_21_apply]
  refine fold_lt _ (fun k => ?_)
  show (ReadP.val_main_v65 (F := F) x0 x1 (hR.lift i k)).toNat ≤ 2 ^ k.val
  rw [ReadP.val_main_v65_apply, ReadP.val_main_v7_apply, ReadP.val_main_v64_apply, ReadP.val_main_v63_apply, weight_eq]
  exact term_le _ k.val k.isLt

end Cert.ReferenceIdeal.Addr

end
-- ==== Proof.RefLookup.lean ====
/-
  The reference's result at batch entry `b` and neuron `n`: its last line gathers the table at the index pair
  (neuron, address), each first wrapped as a possibly negative index (neither is negative) and then clamped into the
  table (both are inside); so it reads the table's row `n` at the address.
-/
import proofs.«419713_j21818433864466_3_alg».proof.Proof.RefReadP
import Idealize.ShloMosaic.Lib.ValueIdx
import Idealize.ShloMosaic.Lib.Pipeline.Value
import Idealize.ShloMosaic.Lib.StableHlo.Predicate

noncomputable section

namespace Cert.ReferenceIdeal.Lookup

open Cert.ReferenceIdeal Cert.ReferenceIdeal.Gen Idealize.ShloMosaic Idealize.ShloMosaic.TcCoe Idealize.ShloMosaic.ValueIdx Idealize.SL.Sem

variable {F : FTy → Type} [FloatOps F]

open Idealize.ShloMosaic.StableHlo.Predicate in
/-- The negative-index wrap leaves a word that is nonnegative as a signed word alone. -/
theorem select_wrap_nonneg (a c : BitVec 32) (ha : a.toNat < 2 ^ 31) :
    Scalar.select (IntOp.cmpi .slt a 0#32) c a = a := by
  have hn : ¬ IntOp.cmpi .slt a 0#32 = 1#1 := by
    rw [slt_iff_toNat ha (by decide)]
    exact Nat.not_lt_zero _
  exact if_neg hn

open Idealize.ShloMosaic.StableHlo.Predicate in
/-- A word below 2^31 read signed is its value. -/
theorem toInt_toNat_of_lt (a : BitVec 32) (ha : a.toNat < 2 ^ 31) : a.toInt.toNat = a.toNat := by
  rw [toInt_eq_toNat_of_lt ha]; rfl

/-- Component 0 of the index pair at (b, n): the neuron n. -/
theorem idx0 (x0 : (⟨S256x1024, .i1⟩ : BufTy).Contents (Elt F)) (x1 : (⟨S4096x16, .i32⟩ : BufTy).Contents (Elt F))
    (b : Fin 256) (n : Fin 4096) :
    ReadP.val_main_v82 (F := F) x0 x1 (ix3 b n (0 : Fin 2)) = BitVec.ofNat 32 n.val := by
  unfold ReadP.val_main_v82
  rw [concatenate_pair_apply_left (t := S256x4096x2) (s₁ := S256x4096x1) (s₂ := S256x4096x1) (2 : Fin 3) _ _ _
    (ix3 b n (0 : Fin 2)) rfl (ix3 b n (0 : Fin 1))
    (fun c => match c with | ⟨0, _⟩ => rfl | ⟨1, _⟩ => rfl | ⟨2, _⟩ => rfl)]
  rw [ReadP.val_main_v80_apply, ReadP.val_main_v79_apply, ReadP.val_main_v73_apply, ReadP.val_main_v70_apply,
    ReadP.val_main_v68_apply, ReadP.val_main_v69_apply, ReadP.val_main_v67_apply, ReadP.val_main_c_22_apply]
  show Scalar.select (IntOp.cmpi .slt (BitVec.ofNat 32 n.val) 0#32) _ (BitVec.ofNat 32 n.val) = _
  exact select_wrap_nonneg _ _ (by have := n.isLt; simp only [BitVec.toNat_ofNat]; omega)

/-- Component 1 of the index pair at (b, n): the address of (b, n). -/
theorem idx1 (x0 : (⟨S256x1024, .i1⟩ : BufTy).Contents (Elt F)) (x1 : (⟨S4096x16, .i32⟩ : BufTy).Contents (Elt F))
    (b : Fin 256) (n : Fin 4096) (h : (ReadP.val_main_v66 (F := F) x0 x1 (ix2 b n)).toNat < 65536) :
    ReadP.val_main_v82 (F := F) x0 x1 (ix3 b n (1 : Fin 2)) = ReadP.val_main_v66 (F := F) x0 x1 (ix2 b n) := by
  unfold ReadP.val_main_v82
  rw [concatenate_pair_apply_right (t := S256x4096x2) (s₁ := S256x4096x1) (s₂ := S256x4096x1) (2 : Fin 3) _ _ _
    (ix3 b n (1 : Fin 2)) rfl rfl (ix3 b n (0 : Fin 1))
    (fun c => match c with | ⟨0, _⟩ => fun _ => rfl | ⟨1, _⟩ => fun _ => rfl | ⟨2, _⟩ => fun hc => absurd rfl hc) rfl]
  rw [ReadP.val_main_v81_apply, ReadP.val_main_v78_apply, ReadP.val_main_v75_apply, ReadP.val_main_v74_apply,
    ReadP.val_main_c_24_apply]
  have hidx : ReadP.idx_main_v81 (ix3 b n (0 : Fin 1)) = ix2 b n := by
    funext a; match a with | ⟨0, _⟩ => rfl | ⟨1, _⟩ => rfl
  rw [hidx]
  exact select_wrap_nonneg _ _ (by omega)

local notation "D" => gather_S4096x65536_S256x4096x2_S256x4096_n_01_n_n_01_2_11

/-- The table lookup's gather at result index (b, n) reads the table at the pair of its two start-index components,
    each read signed and clamped into its axis. -/
theorem gather_pair_apply {α : Type} (x : S4096x65536.Idx → α) (idx : IVec S256x4096x2 32) (b : Fin 256) (n : Fin 4096)
    (p : Fin 4096) (q : Fin 65536)
    (hp : min (idx (ix3 b n (0 : Fin 2))).toInt.toNat 4095 = p.val)
    (hq : min (idx (ix3 b n (1 : Fin 2))).toInt.toNat 65535 = q.val) :
    Host.gather D x idx (ix2 b n) = x (ix2 p q) := by
  unfold Host.gather
  congr 1
  funext a
  refine Fin.ext ?_
  match a with
  | ⟨0, _⟩ =>
    have hm : (0 : Fin 2) ∈ ([0, 1] : List (Fin 2)) := by decide
    show (D).start (ix2 b n) idx 0 + (D).batchCoord (ix2 b n) 0 + (D).offCoord (ix2 b n) 0 = p.val
    rw [GatherDims.batchCoord_eq_zero _ _ _ List.not_mem_nil,
      GatherDims.offCoord_eq_zero _ _ _ (fun h => ((GatherDims.mem_sKept _ _).mp h).1 hm), ← hp]
    unfold GatherDims.start
    rw [dif_pos (show (0 : Fin 2) ∈ (D).startIndexMap from hm)]
    have hsi : (D).siIdx (ix2 b n) ⟨List.idxOf (0 : Fin 2) (D).startIndexMap, List.idxOf_lt_length_iff.2 hm⟩
        = ix3 b n (0 : Fin 2) := by
      funext c; refine Fin.ext ?_
      match c with
      | ⟨0, _⟩ => rfl
      | ⟨1, _⟩ => rfl
      | ⟨2, _⟩ => rfl
    rw [hsi]
    rfl
  | ⟨1, _⟩ =>
    have hm : (1 : Fin 2) ∈ ([0, 1] : List (Fin 2)) := by decide
    show (D).start (ix2 b n) idx 1 + (D).batchCoord (ix2 b n) 1 + (D).offCoord (ix2 b n) 1 = q.val
    rw [GatherDims.batchCoord_eq_zero _ _ _ List.not_mem_nil,
      GatherDims.offCoord_eq_zero _ _ _ (fun h => ((GatherDims.mem_sKept _ _).mp h).1 hm), ← hq]
    unfold GatherDims.start
    rw [dif_pos (show (1 : Fin 2) ∈ (D).startIndexMap from hm)]
    have hsi : (D).siIdx (ix2 b n) ⟨List.idxOf (1 : Fin 2) (D).startIndexMap, List.idxOf_lt_length_iff.2 hm⟩
        = ix3 b n (1 : Fin 2) := by
      funext c; refine Fin.ext ?_
      match c with
      | ⟨0, _⟩ => rfl
      | ⟨1, _⟩ => rfl
      | ⟨2, _⟩ => rfl
    rw [hsi]
    rfl

/-- The gather over an index array whose pair at (b, n) is (n, A) with A inside the table's row reads row n at A. -/
theorem lookup_core {α : Type} (x : S4096x65536.Idx → α) (idx : IVec S256x4096x2 32) (b : Fin 256) (n : Fin 4096)
    (A : BitVec 32) (h : A.toNat < 65536)
    (e0 : idx (ix3 b n (0 : Fin 2)) = BitVec.ofNat 32 n.val) (e1 : idx (ix3 b n (1 : Fin 2)) = A) :
    Host.gather D x idx (ix2 b n) = x (ix2 n ⟨A.toNat, h⟩) := by
  have hn : (BitVec.ofNat 32 n.val).toNat = n.val := by
    have := n.isLt; simp only [BitVec.toNat_ofNat]; omega
  refine gather_pair_apply x idx b n n ⟨A.toNat, h⟩ ?_ ?_
  · rw [e0, toInt_toNat_of_lt _ (by rw [hn]; have := n.isLt; omega), hn]
    have := n.isLt; omega
  · rw [e1, toInt_toNat_of_lt _ (by omega)]
    show min A.toNat 65535 = A.toNat
    omega

/-- The last stage at `(b, n)` is the table's entry at row `n` and the address of `(b, n)`. -/
theorem lookup_apply (x0 : (⟨S256x1024, .i1⟩ : BufTy).Contents (Elt F)) (x1 : (⟨S4096x16, .i32⟩ : BufTy).Contents (Elt F))
    (x2 : (⟨S4096x65536, .i32⟩ : BufTy).Contents (Elt F)) (b : Fin 256) (n : Fin 4096)
    (h : (ReadP.val_main_v66 (F := F) x0 x1 (ix2 b n)).toNat < 65536) :
    ReadP.val_main_v83 (F := F) x0 x1 x2 (ix2 b n)
      = x2 (ix2 n ⟨(ReadP.val_main_v66 (F := F) x0 x1 (ix2 b n)).toNat, h⟩) :=
  lookup_core x2 (ReadP.val_main_v82 (F := F) x0 x1) b n _ h (idx0 x0 x1 b n) (idx1 x0 x1 b n h)

end Cert.ReferenceIdeal.Lookup

end
-- ==== Proof.lean ====
/-
  The claims of this certificate. The kernel looks a table entry up by two one-hot selections on the matrix unit; the
  reference gathers it. Both compute, per batch entry `b` and neuron `n`, a 16-bit address from the wired input bits
  (the same host lines in both programs) and return the table's entry at row `n` and that address.

  * The three frames: the kernel's two are the generated frame certificates; the reference's is its run with the result
    dropped.
  * `preserves`: the idealization rewrote nothing.
  * `algebraic`: the kernel's run ends with the lookup at the kernel's address array; that array is the reference's
    address stage of the same arguments, every address is below 65536, and the reference's last stage at `(b, n)` reads
    the table at row `n` and the address.
-/
import proofs.«419713_j21818433864466_3_alg».proof.Defs
import proofs.«419713_j21818433864466_3_alg».proof.Proof.Gen.Kernel
import proofs.«419713_j21818433864466_3_alg».proof.Proof.Gen.Kernel.Frame
import proofs.«419713_j21818433864466_3_alg».proof.Proof.Gen.KernelIdeal
import proofs.«419713_j21818433864466_3_alg».proof.Proof.Gen.KernelIdeal.Frame
import proofs.«419713_j21818433864466_3_alg».proof.Proof.Gen.ReferenceIdeal
import proofs.«419713_j21818433864466_3_alg».proof.Proof.Gen.Pre_any_inputs
import proofs.«419713_j21818433864466_3_alg».proof.Proof.KernelArray
import proofs.«419713_j21818433864466_3_alg».proof.Proof.KernelAddr
import proofs.«419713_j21818433864466_3_alg».proof.Proof.RefRun
import proofs.«419713_j21818433864466_3_alg».proof.Proof.RefAddr
import proofs.«419713_j21818433864466_3_alg».proof.Proof.RefLookup
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

/-- Every address the kernel's host lines compute is below 65536: the address array is the reference's address stage. -/
theorem addr_ok (m : (ℓ : Loc Cert.KernelIdeal.nD Cert.KernelIdeal.τ Cert.KernelIdeal.sig) → Buf (Elt Ideal) ℓ)
    (c : Dev Cert.KernelIdeal.nD) (i : Cert.KernelIdeal.S256x4096.Idx) :
    (Cert.KernelIdeal.Host.addrArr m c i).toNat < 65536 := by
  have h := congrFun (Cert.KernelIdeal.Addr.kaddr_eq m c) i
  show ((Cert.KernelIdeal.Gen.V m c Cert.KernelIdeal.main_v66 : Cert.KernelIdeal.S256x4096.Idx → BitVec 32) i).toNat < 65536
  rw [h]
  exact Cert.ReferenceIdeal.Addr.addr_lt _ _ i

/-- Both programs end with the same result array: the table read at the neuron's row and the address. -/
theorem algebraic : Cert.algebraic_KernelIdeal_ReferenceIdeal := by
  intro m ρ m' ρ' _ hagree
  refine ⟨fun c => Cert.KernelIdeal.Arr.result m c (addr_ok m c), Cert.KernelIdeal.Arr.run m ρ (addr_ok m), ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  funext i
  obtain ⟨b, n, rfl⟩ : ∃ (b : Fin 256) (n : Fin 4096), i = ix2 b n := ⟨i 0, i 1, eq_ix2 i⟩
  have hk := congrFun (Cert.KernelIdeal.Addr.kaddr_eq m c) (ix2 b n)
  have hlt := Cert.ReferenceIdeal.Addr.addr_lt (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (ix2 b n)
  refine (Cert.ReferenceIdeal.Lookup.lookup_apply _ _ _ b n hlt).trans ?_
  unfold Cert.KernelIdeal.Arr.result
  have hq : (⟨(Cert.ReferenceIdeal.ReadP.val_main_v66 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix2 b n)).toNat, hlt⟩ : Fin 65536)
      = ⟨(Cert.KernelIdeal.Host.addrArr m c (ix2 b n)).toNat, addr_ok m c (ix2 b n)⟩ :=
    Cert.KernelIdeal.Arr.fin_mk_congr _ _ _ _ (congrArg BitVec.toNat hk.symm)
  exact congrArg (fun q : Fin 65536 =>
    (m ((c.tc : Thread Cert.KernelIdeal.nD Cert.KernelIdeal.τ).loc Cert.KernelIdeal.main_arg2) : Cert.KernelIdeal.S4096x65536.Idx → BitVec 32)
      (ix2 n q)) hq

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
